-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S4096 : Shape := ⟨1, ![4096]⟩

abbrev nBuf : Space → Nat
  | .hbm => 34
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S8192, .f32⟩
  | .hbm, ⟨15, _⟩ => ⟨S4096x128, .bf16⟩
  | .hbm, ⟨16, _⟩ => ⟨S4096x128, .bf16⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024, .f32⟩
  | .local _ .vmem, ⟨5, _⟩ => ⟨S1024, .f32⟩
  | .local _ .vmem, ⟨6, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S1024x1_S1024 : S1024x1.ShapeCasts S1024
  inb_S1024_S1024_0 : ∀ a, (![0] : Fin 1 → Nat) a + S1024.size a ≤ S1024.size a
  h_S1024 : 0 < S1024.numel
  slices_S8192x128_S4096x128_0_0 : S8192x128.Slices ![0, 0] S4096x128
  slices_S8192x128_S4096x128_4096_0 : S8192x128.Slices ![4096, 0] S4096x128
  reducesTo_S4096x128_S4096_d1 : S4096x128.ReducesTo [1] S4096
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .f32 = 32 ∨ (Rect.block (s := S8192) S1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 86
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x8192, .f32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x1, .i32⟩
  | .hbm, ⟨34, _⟩ => ⟨S4096x2, .i32⟩
  | .hbm, ⟨35, _⟩ => ⟨S4096, .f32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S4096x1, .i32⟩
  | .hbm, ⟨55, _⟩ => ⟨S4096x2, .i32⟩
  | .hbm, ⟨56, _⟩ => ⟨S4096, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192x8192, .i32⟩
  | .hbm, ⟨63, _⟩ => ⟨S8192x8192, .i32⟩
  | .hbm, ⟨64, _⟩ => ⟨S_, .i32⟩
  | .hbm, ⟨65, _⟩ => ⟨S8192x8192, .i32⟩
  | .hbm, ⟨66, _⟩ => ⟨S8192x8192, .i32⟩
  | .hbm, ⟨67, _⟩ => ⟨S8192x8192, .i1⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x128_S8192x128_S8192x8192_1_1_0_0_n_n_wf : DotDims.WF S8192x128 S8192x128 S8192x8192 [1] [1] [0] [0] [] []
  gather_S8192x8192_S4096x2_S4096_n_01_n_n_01_1_11_wf : GatherDims.WF S8192x8192 S4096x2 S4096 [] [0, 1] [] [0, 1] [] 1 ![1, 1]

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.Kern.Data.lean ====
/-
  The launch of the row-sum kernel, the data every later module states its lemmas over.

  The kernel walks an 8 × 8 grid over the normalised rows z (8192 × 128): at point (a, b) it multiplies row tile a
  by the transpose of row tile b, exponentiates twice the products, zeroes the diagonal of the whole 8192 × 8192
  matrix, sums each row of the tile and adds the 1024 sums to a running column kept in a scratch buffer; the column is
  reset at b = 0 and copied into the output block a at b = 7. Both input windows read the one array z.
-/
import proofs.«106766_j60722247631651_1_alg».proof.Proof.Gen.KernelIdeal.Launch
import proofs.«106766_j60722247631651_1_alg».proof.Proof.Gen.KernelIdeal.Skeleton
import proofs.«106766_j60722247631651_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

/-! ## The buffers when the region is entered -/

/-- The host operations before the region, in order: the concatenation, the row norms, the clamp and the quotient. -/
abbrev preOps : List (HloOp τ sig (Elt F)) := List.flatten [hostOps0, hostOps0_1, hostOps0_2]

/-- Core `c`'s buffers as launched, as a valuation. -/
abbrev V₀ (c : Dev nD) : Valuation τ sig (Elt F) := fun b => m ((c : Dev nD), b)

/-- Core `c`'s buffers when the region is entered: the launch contents after the host operations before it. -/
abbrev Vpre (c : Dev nD) : Valuation τ sig (Elt F) := StableHlo.after (preOps (F := F)) (V₀ m c)

/-- The same, by TensorCore reference. -/
abbrev V (c : Dev nD) (b : Ref sig .tc) : Buf (Elt F) ((c : Thread nD τ).loc b) := Vpre m c (Proc.devRef .tc b)

/-! ## The windows' blocks, the staging memrefs, the branch conditions -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, and the scratch column. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev msS : Memref sig .tc .vmem S1024x1 .f32 := Memref.whole cc0_scratch0
abbrev hsS : (msS).IsWhole := Memref.isWhole_whole _

/-- The running column is reset where the column-tile coordinate is 0, -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)
/-- and written out where it is 7. -/
theorem hcondOut : ∀ t : Fin cfg0.N, k0_cond2 (grid0.coords t) = 1#1 ↔ t.val % 8 = 7 :=
  (by decide +kernel : ∀ t : Fin grid0.N, k0_cond2 (grid0.coords t) = 1#1 ↔ t.val % 8 = 7)

/-! ## The running column -/

/-- What the scratch column holds after the body at position `n`: the point's row sums, over zero at the start of a
    row tile and over what the point before left elsewhere. -/
def accAt (c : Dev nD) : (n : ℕ) → n < cfg0.N → Vec F S1024x1 .f32
  | 0, hn => k0_pay2 (grid0.coords ⟨0, hn⟩) (iblk m c 0 ⟨0, hn⟩) (iblk m c 1 ⟨0, hn⟩) (k0_pay1 (F := F))
  | n + 1, hn =>
    if h0 : (n + 1) % 8 = 0 then
      k0_pay2 (grid0.coords ⟨n + 1, hn⟩) (iblk m c 0 ⟨n + 1, hn⟩) (iblk m c 1 ⟨n + 1, hn⟩) (k0_pay1 (F := F))
    else
      k0_pay2 (grid0.coords ⟨n + 1, hn⟩) (iblk m c 0 ⟨n + 1, hn⟩) (iblk m c 1 ⟨n + 1, hn⟩) (accAt c n (Nat.lt_of_succ_lt hn))

theorem accAt_reset (c : Dev nD) (t : Fin cfg0.N) (h0 : t.val % 8 = 0) :
    accAt m c t.val t.isLt = k0_pay2 (grid0.coords t) (iblk m c 0 t) (iblk m c 1 t) (k0_pay1 (F := F)) := by
  obtain ⟨n, hn⟩ := t
  cases n with
  | zero => exact rfl
  | succ n => exact (dif_pos h0).trans rfl

theorem accAt_step (c : Dev nD) (t : Fin cfg0.N) (h0 : ¬t.val % 8 = 0) :
    accAt m c t.val t.isLt = k0_pay2 (grid0.coords t) (iblk m c 0 t) (iblk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The same at any position, zero past the grid. -/
def accTot (c : Dev nD) (n : ℕ) : Vec F S1024x1 .f32 := if h : n < cfg0.N then accAt m c n h else k0_pay1 (F := F)

/-! ## The pipeline's proof data -/

/-- The invariant between points: the scratch column at the running sums (anything at the start of a row tile) and the
    generator register. -/
def Φ (c : Dev nD) (t : Fin (cfg0.N + 1)) : sProp 𝕄 :=
  iprop((∃ X : Vec F S1024x1 .f32, ⌜t.val % 8 ≠ 0 → X = accTot m c (t.val - 1)⌝ ∗ owns (c : Thread nD τ) msS fullShare X) ∗ ∃ r, prngReg c r)

/-- The proof data on core `c`: the arrays as the region finds them; after the body at point `t` each input's buffer at
    its block and the output's at the running column laid out as a row; the two input windows each hold half of the one
    array they read; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (accAt m c t.val t.isLt)
  Φ t := Φ m c t
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = k0_pay3 (accAt m c t.val t.isLt) := by dsimp only [dats]; rfl
theorem Φ_eq (c : Dev nD) (t : Fin (cfg0.N + 1)) : (dats m 0 c).Φ t = Φ m c t := by dsimp only [dats]

/-! ## The buffers after the region and at the end -/

/-- The output array when the region ends: the library's account of the write-backs. -/
abbrev denomArr (c : Dev nD) : Buf (Elt F) ((c : Thread nD τ).loc main_v7) := (dats m 0 c).arrAt 2 cfg0.N

/-- Core `c`'s buffers when the region ends: the output array written, everything else as the region found it. -/
def Vexit (c : Dev nD) : Valuation τ sig (Elt F) := Function.update (Vpre m c) (Proc.devRef .tc main_v7) (denomArr m c)

/-- Core `c`'s buffers at the return: after the host operations that follow the region. -/
def Vend (c : Dev nD) : Valuation τ sig (Elt F) := StableHlo.after (hostOps1 (F := F)) (Vexit m c)

end Cert.KernelIdeal.Hand

end
-- ==== Proof.Kern.Body.lean ====
/-
  The body of the row-sum kernel at a grid point: it reads its two row tiles, adds the tile's masked exponential row
  sums to the running column (reset first where the column tile is 0) and, where the column tile is 7, copies the
  column into the output block.
-/
import proofs.«106766_j60722247631651_1_alg».proof.Proof.Kern.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

/-! ## Stores and loads through the whole-shape rectangle

Every store and load of the body goes through the rectangle that is the buffer's whole shape at zero offsets: such a
store leaves its payload whatever was there, such a load reads the contents. -/

/-- The zero offsets, however spelt. -/
theorem hz2 : (![0, 0] : Fin 2 → Nat) = fun _ => 0 := funext fun a => by fin_cases a <;> rfl
theorem hz1 : (![0] : Fin 1 → Nat) = fun _ => 0 := funext fun a => by fin_cases a <;> rfl

/-- A buffer whose LAST store went through the whole-shape rectangle at zero offsets reads that store's payload. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The body on any whole memrefs, case by case

The three runs are stated over arbitrary whole memrefs and an arbitrary grid point, with the case's two branch
conditions as hypotheses; the row tiles are `x0`, `x1`, the running column on entry is `X`. Each run names what every
buffer holds afterwards as a payload of what it held before. -/

set_option maxHeartbeats 1000000 in
/-- Column tile 0: the running column, whatever it held, is zeroed and then receives the tile's row sums; the output
    block is not touched. -/
theorem run_reset (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024x1 .f32) (harg5 : arg5.IsWhole) (hc0 : condReset i) (hc1 : ¬k0_cond2 i = 1#1)
    (x0 x1 : Vec F S1024x128 .bf16) (xi : Vec F S1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 i x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  sl_unfold_words
  -- the last store covers the column; the load before it read back the zeros just stored
  rw [read_writes_unit_zero _ _ hz2]
  simp only [View.readAt_eq_ld, hf0, hf1, View.ld_unit_zero (S := S1024x128) hz2, View.readCov_unit_zero (S := S1024x1) _ hz2]

set_option maxHeartbeats 1000000 in
/-- Column tiles 1 to 6: the running column receives the tile's row sums on top of what it held; the output block is
    not touched. -/
theorem run_step (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024x1 .f32) (harg5 : arg5.IsWhole) (hc0 : ¬condReset i) (hc1 : ¬k0_cond2 i = 1#1)
    (x0 x1 : Vec F S1024x128 .bf16) (X : Vec F S1024x1 .f32) (xi : Vec F S1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare X
        ∗ (iprop(owns (c : Thread nD τ) arg2 fullShare x0 ∗ owns (c : Thread nD τ) arg3 fullShare x1 ∗ owns (c : Thread nD τ) arg4 fullShare xi ∗ owns (c : Thread nD τ) arg5 fullShare (k0_pay2 i x0 x1 X)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  rw [read_writes_unit_zero _ _ hz2]
  simp only [View.readAt_eq_ld, hf0, hf1, hf5, View.ld_unit_zero (S := S1024x128) hz2, View.ld_unit_zero (S := S1024x1) hz2]

set_option maxHeartbeats 1000000 in
/-- Column tile 7: the running column receives the tile's row sums on top of what it held, and the output block,
    whatever it held, receives the column laid out as a row. -/
theorem run_out (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024x1 .f32) (harg5 : arg5.IsWhole) (hc0 : ¬condReset i) (hc1 : k0_cond2 i = 1#1)
    (x0 x1 : Vec F S1024x128 .bf16) (X : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare X
        ∗ (iprop(owns (c : Thread nD τ) arg2 fullShare x0 ∗ owns (c : Thread nD τ) arg3 fullShare x1 ∗ owns (c : Thread nD τ) arg4 fullShare (k0_pay3 (k0_pay2 i x0 x1 X)) ∗ owns (c : Thread nD τ) arg5 fullShare (k0_pay2 i x0 x1 X)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_words
    -- the one store covers the output block; its payload read the column back after the column's store
    rw [read_writes_unit_zero _ _ hz1]
    simp only [View.readCov_unit_zero (S := S1024x1) _ hz2, View.readAt_eq_ld, hf0, hf1, hf5,
      View.ld_unit_zero (S := S1024x128) hz2, View.ld_unit_zero (S := S1024x1) hz2]
  iexists _; isplitr
  swap; · iexact H5
  ipureintro
  sl_unfold_words
  rw [read_writes_unit_zero _ _ hz2]
  simp only [View.readAt_eq_ld, hf0, hf1, hf5, View.ld_unit_zero (S := S1024x128) hz2, View.ld_unit_zero (S := S1024x1) hz2]

/-! ## What the windows' buffers hold when the body runs, and what it must leave -/

/-- Each row tile's current buffer holds its block at every point, fetched there or not: an input window is never
    idle and is not cut, and where it is not fetched its block index has not moved. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; rfl) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; rfl) t d).trans
    (by unfold Dat.fetched Dat.blockOf iblk; rw [A_eq]; rfl)

/-- The row tiles' buffers are to be left at their blocks (the input windows are live everywhere). -/
theorem leaves0_0 (c : Dev nD) (t : Fin cfg0.N) :
    (dats m 0 c).leavesExact 0 t = owns (c : Thread nD τ) (ms0_0 t) fullShare (iblk m c 0 t) := by
  unfold Dat.leavesExact; rw [show cfg0.idle 0 (cfg0.grid.coords t) = false from rfl, after0_0]; rfl
theorem leaves0_1 (c : Dev nD) (t : Fin cfg0.N) :
    (dats m 0 c).leavesExact 1 t = owns (c : Thread nD τ) (ms0_1 t) fullShare (iblk m c 1 t) := by
  unfold Dat.leavesExact; rw [show cfg0.idle 1 (cfg0.grid.coords t) = false from rfl, after0_1]; rfl

/-- The output window is idle exactly where the write-out branch is not taken, -/
theorem idle0_2_of (i : grid0.Coords) (h : ¬k0_cond2 i = 1#1) : cfg0.idle 2 i = true := by
  show (!(k0_cond2 i == 1#1)) = true
  rw [Bool.not_eq_true', beq_eq_false_iff_ne]; exact h
theorem live0_2_of (i : grid0.Coords) (h : k0_cond2 i = 1#1) : cfg0.idle 2 i = false := by
  show (!(k0_cond2 i == 1#1)) = false
  rw [h]; rfl

/-- so off column tile 7 its buffer is to be handed back as found, -/
theorem leaves0_2_idle (c : Dev nD) (t : Fin cfg0.N) (h7 : ¬t.val % 8 = 7) :
    (dats m 0 c).leavesExact 2 t = iprop(∃ d, owns (c : Thread nD τ) (ms0_2 t) fullShare ((dats m 0 c).before 2 t d)) :=
  Dat.leavesExact_idle (dats m 0 c) 2 t (idle0_2_of _ fun h => h7 ((hcondOut t).mp h))
    (Bool.eq_false_iff.mpr fun h => h7 ((flush0_2 t).mp h))
/-- and at column tile 7 left at the running column laid out as a row. -/
theorem leaves0_2_live (c : Dev nD) (t : Fin cfg0.N) (h7 : t.val % 8 = 7) :
    (dats m 0 c).leavesExact 2 t = owns (c : Thread nD τ) (ms0_2 t) fullShare (k0_pay3 (accAt m c t.val t.isLt)) := by
  unfold Dat.leavesExact; rw [live0_2_of _ ((hcondOut t).mpr h7), after0_2]; rfl

/-- The running column after point `t`, as the invariant before point `t + 1` names it, -/
theorem accTot_succ (c : Dev nD) (t : Fin cfg0.N) : accTot m c (t.succ.val - 1) = accAt m c t.val t.isLt := by
  rw [show t.succ.val - 1 = t.val from by rw [Fin.val_succ]; exact Nat.add_sub_cancel _ _]
  exact dif_pos t.isLt
/-- and the one before point `t`. -/
theorem accTot_pred (c : Dev nD) (t : Fin cfg0.N) :
    accTot m c (t.castSucc.val - 1) = accAt m c (t.val - 1) (Nat.lt_of_le_of_lt (Nat.sub_le _ _) t.isLt) := by
  rw [show t.castSucc.val = t.val from rfl]
  exact dif_pos _

/-! ## The body obligation, at a generic point -/

/-- What the body is called with at point `t` (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point. The row tiles' buffers hold their blocks; the column-tile coordinate says which of the three
    runs applies. At column tile 0 the invariant hands over the running column at anything; elsewhere at the sums the
    point before left. The run returns it at this point's sums (`accAt_reset` / `accAt_step`), which the invariant
    before the next point names; the output buffer comes back as found, or at column tile 7 at the sums laid out as a
    row; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, Φ_eq, Φ_eq, leaves0_0, leaves0_1]
  unfold Φ
  have hN : t.val < 64 := lt_of_lt_of_eq t.isLt (show cfg0.N = 64 from N_0)
  by_cases h0 : t.val % 8 = 0
  · have h7 : ¬t.val % 8 = 7 := by omega
    rw [leaves0_2_idle m c t h7]
    iintro ⟨⟨⟨%X, -, HS⟩, Hg⟩, Ho, ⟨%d0, H0⟩, ⟨%d1, H1⟩, ⟨%d2, H2⟩⟩
    iapply (run_reset c (grid0.coords t) _ _ _ _ _ _ _ _ ((hcondReset t).mpr h0) (fun h => h7 ((hcondOut t).mp h))
      (iblk m c 0 t) (iblk m c 1 t) ((dats m 0 c).before 2 t d2) Set.univ _)
    isplitl [H0]; · iexact H0
    isplitl [H1]; · iexact H1
    isplitl [H2]; · iexact H2
    isplitl [HS]; · iexists _; iexact HS
    iintro ⟨H0, H1, H2, HS⟩
    isplitl [HS Hg]
    · isplitl [HS]
      · iexists _; isplitr
        swap; · iexact HS
        ipureintro; intro _; rw [accTot_succ, accAt_reset m c t h0]
      iexact Hg
    isplitl [Ho]; · iexact Ho
    isplitl [H0]; · iexact H0
    isplitl [H1]; · iexact H1
    iexists _; iexact H2
  · by_cases h7 : t.val % 8 = 7
    · rw [leaves0_2_live m c t h7]
      iintro ⟨⟨⟨%X, %hX, HS⟩, Hg⟩, Ho, ⟨%d0, H0⟩, ⟨%d1, H1⟩, ⟨%d2, H2⟩⟩
      obtain rfl := (hX h0).trans (accTot_pred m c t)
      rw [accAt_step m c t h0]
      iapply (run_out c (grid0.coords t) _ _ _ _ _ _ _ _ (fun h => h0 ((hcondReset t).mp h)) ((hcondOut t).mpr h7)
        (iblk m c 0 t) (iblk m c 1 t) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]
        · iexists _; isplitr
          swap; · iexact HS
          ipureintro; intro _; rw [accTot_succ, accAt_step m c t h0]
        iexact Hg
      isplitl [Ho]; · iexact Ho
      isplitl [H0]; · iexact H0
      isplitl [H1]; · iexact H1
      iexact H2
    · rw [leaves0_2_idle m c t h7]
      iintro ⟨⟨⟨%X, %hX, HS⟩, Hg⟩, Ho, ⟨%d0, H0⟩, ⟨%d1, H1⟩, ⟨%d2, H2⟩⟩
      obtain rfl := (hX h0).trans (accTot_pred m c t)
      iapply (run_step c (grid0.coords t) _ _ _ _ _ _ _ _ (fun h => h0 ((hcondReset t).mp h)) (fun h => h7 ((hcondOut t).mp h))
        (iblk m c 0 t) (iblk m c 1 t) _ ((dats m 0 c).before 2 t d2) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr
          swap; · iexact HS
          ipureintro; intro _; rw [accTot_succ, accAt_step m c t h0]
        iexact Hg
      isplitl [Ho]; · iexact Ho
      isplitl [H0]; · iexact H0
      isplitl [H1]; · iexact H1
      iexists _; iexact H2

/-- The body at every point meets the pipeline's obligation for the proof data `dats`. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Kern.Launch.lean ====
/-
  The run of the whole program from the body's obligation: the host operations before the region, the region with its
  two input windows on one array, the host operations after it.
-/
import proofs.«106766_j60722247631651_1_alg».proof.Proof.Kern.Data
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

namespace RunMain

/-! ## The pipeline's proof data as a family, the levels, what rides along -/

/-- The prefetched tables' admissible contents: the pipeline has no table. -/
abbrev adm : (p : Fin 1) → (pcfgs (F := F) p).Adm := fun p => (cfgs p).toPCfg_adm

/-- The proof data as the family over the program's one pipeline. -/
abbrev pdats : (p : Fin 1) → (c : Dev nD) → Dat τ (Elt F) Unit ℕ (UR sig nD τ) ℕ (Pipeline.pin (pcfgs (F := F)) adm p) c :=
  fun p c => dats m p c

/-- No core owes anything at launch: no level is assigned. -/
abbrev L : GSem nD τ sig → Finset Unit := fun _ => ∅
abbrev lv : GSem nD τ sig → Unit → ℕ := fun _ _ => 0

/-- Beside the buffers, between any two items: the generator register at some value, the core owing nothing. -/
abbrev R (c : Dev nD) : sProp 𝕄 := iprop((∃ r, prngReg c r) ∗ ∃ W, owes (c : Thread nD τ) (0 : CellTallies nD τ sig Unit) W)

local notation "ℍ" => Pipeline.HostSeg (Name := ℕ) (U := UR sig nD τ) (pcfgs (F := F)) defs₀ Variants.none L lv
local notation "ℝ𝕊" => Pipeline.RegionSeg (pcfgs (F := F)) adm (pdats m) () defs₀ Variants.none L lv

/-! ## The host stretches -/

theorem sub_of_forall {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op (List.forall_iff_forall_mem.mp h op hop)

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The valuations between the three stretches before the region. -/
abbrev Va (c : Dev nD) : Valuation τ sig (Elt F) := StableHlo.after (hostOps0 (F := F)) (V₀ m c)
abbrev Vb (c : Dev nD) : Valuation τ sig (Elt F) := StableHlo.after (hostOps0_1 (F := F)) (Va m c)

/-- Run one after the other the three stretches leave what their concatenation leaves. -/
theorem Vpre_eq (c : Dev nD) : StableHlo.after (hostOps0_2 (F := F)) (Vb m c) = Vpre m c := by
  show _ = StableHlo.after (List.flatten [hostOps0, hostOps0_1, hostOps0_2]) (V₀ m c)
  rw [List.flatten_cons, List.flatten_cons, List.flatten_cons, List.flatten_nil, List.append_nil,
    StableHlo.after_append, StableHlo.after_append]

def seg0 : ℍ := Pipeline.HostSeg.ofOps _ _ _ _ _ (Pipeline.ucRefs τ sig) hostOps0 (sub_of_forall hostOps0_sub) fresh0 (V₀ m) R
def seg1 : ℍ := Pipeline.HostSeg.ofOps _ _ _ _ _ (Pipeline.ucRefs τ sig) hostOps0_1 (sub_of_forall hostOps0_1_sub) fresh0_1 (Va m) R
def seg2 : ℍ := Pipeline.HostSeg.ofOps _ _ _ _ _ (Pipeline.ucRefs τ sig) hostOps0_2 (sub_of_forall hostOps0_2_sub) fresh0_2 (Vb m) R
def seg4 : ℍ := Pipeline.HostSeg.ofOps _ _ _ _ _ (Pipeline.ucRefs τ sig) hostOps1 (sub_of_forall hostOps1_sub) fresh1 (Vexit m) R

/-! ## The region's arrays: one buffer dealt to two input windows by halves, the output's whole -/

/-- The three windows' arrays at any contents, opened: the two input windows each hold half of the one array both
    read, the output window its array whole. -/
theorem arrays_open (c : Dev nD) (Fa : (w : Fin cfg0.W) → Buf (Elt F) ((cfg0.win w).arr.view.loc (c : Thread nD τ))) :
    ((dats m 0 c).arrays Fa : sProp 𝕄)
      = iprop((((c : Thread nD τ).loc main_v6) ↦{fullShare.left} Fa (0 : Fin 3)) ∗ (((c : Thread nD τ).loc main_v6) ↦{fullShare.right} Fa (1 : Fin 3))
          ∗ (((c : Thread nD τ).loc main_v7) ↦{fullShare} Fa (2 : Fin 3))) := by
  unfold Pipeline.Dat.arrays
  rw [bigSep_W0]
  have h0 : (cfg0.win (0 : Fin 3)).arr.view.set = Finset.univ := (arr_whole0 0).set_eq_univ
  have h2 : (cfg0.win (2 : Fin 3)).arr.view.set = Finset.univ := (arr_whole0 2).set_eq_univ
  rw [h0, h2]
  rfl

/-- The two buffers behind the windows' arrays, as device buffers, -/
abbrev arrT : Finset (DevRef τ sig) := {Proc.devRef .tc main_v6, Proc.devRef .tc main_v7}
/-- both unscoped. -/
theorem arrT_sub : (arrT : Finset (DevRef τ sig)) ⊆ Pipeline.ucRefs τ sig := by decide

/-- The two held whole at a valuation. -/
theorem heldT_eq (c : Dev nD) (W : Valuation τ sig (Elt F)) : (StableHlo.held (c : Thread nD τ) arrT W : sProp 𝕄)
    = iprop((((c : Thread nD τ).loc main_v6) ↦{fullShare} W (Proc.devRef .tc main_v6)) ∗ (((c : Thread nD τ).loc main_v7) ↦{fullShare} W (Proc.devRef .tc main_v7))) := by
  unfold StableHlo.held
  rw [bigSep_eq_bigSepL_of_eq [Proc.devRef .tc main_v6, Proc.devRef .tc main_v7] (by decide) (by decide)]
  rfl

/-- The pipeline prefetches no table. -/
theorem prefHeld0 (c : Dev nD) (q) (pf) :
    (Pipeline.prefHeld (Ix := Unit) (Name := ℕ) (U := UR sig nD τ) (Lvl := ℕ) (Val := Elt F) (pcfgs (F := F) 0).pre c q pf : sProp 𝕄) = BI.emp := by
  unfold Pipeline.prefHeld; rw [show (Finset.univ : Finset (Fin 0)) = ∅ from rfl, BI.bigSep_empty]

/-- The core's `owes` as the pipeline's at a point, the proof data owing nothing and bounding its recorded pairs by
    nothing; and back. -/
theorem owesAt_intro (c : Dev nD) (t : Fin (cfg0.N + 1)) :
    iprop(∃ W, owes (c : Thread nD τ) (0 : CellTallies nD τ sig Unit) W) ⊢ ((dats m 0 c).owesAt () t : sProp 𝕄) := by
  unfold Pipeline.Dat.owesAt Pipeline.owesWithin Pipeline.Dat.bound
  rw [show (dats m 0 c).owed t = 0 from rfl, show (dats m 0 c).recorded t = Set.univ from rfl]
  iintro ⟨%W, HO⟩; iexists W; isplitr; · ipureintro; exact fun _ _ => Or.inl trivial
  iexact HO
theorem owesAt_elim (c : Dev nD) (t : Fin (cfg0.N + 1)) :
    ((dats m 0 c).owesAt () t : sProp 𝕄) ⊢ iprop(∃ W, owes (c : Thread nD τ) (0 : CellTallies nD τ sig Unit) W) := by
  unfold Pipeline.Dat.owesAt Pipeline.owesWithin
  rw [show (dats m 0 c).owed t = 0 from rfl]
  iintro ⟨%W, -, HO⟩; iexists W; iexact HO

/-- What the windows' arrays hold when the region is entered, -/
theorem arrAt0_0 (c : Dev nD) : (dats m 0 c).arrAt (0 : Fin 3) 0 = Vpre m c (Proc.devRef .tc main_v6) := rfl
theorem arrAt1_0 (c : Dev nD) : (dats m 0 c).arrAt (1 : Fin 3) 0 = Vpre m c (Proc.devRef .tc main_v6) := rfl
theorem arrAt2_0 (c : Dev nD) : (dats m 0 c).arrAt (2 : Fin 3) 0 = Vpre m c (Proc.devRef .tc main_v7) := rfl
/-- and when it ends: an input window's array is never written. -/
theorem arrAt0_N (c : Dev nD) : (dats m 0 c).arrAt (0 : Fin 3) cfg0.N = Vpre m c (Proc.devRef .tc main_v6) :=
  ((dats m 0 c).arrAt_in (0 : Fin 3) rfl cfg0.N).trans rfl
theorem arrAt1_N (c : Dev nD) : (dats m 0 c).arrAt (1 : Fin 3) cfg0.N = Vpre m c (Proc.devRef .tc main_v6) :=
  ((dats m 0 c).arrAt_in (1 : Fin 3) rfl cfg0.N).trans rfl
theorem arrAt2_N (c : Dev nD) : (dats m 0 c).arrAt (2 : Fin 3) cfg0.N = Vexit m c (Proc.devRef .tc main_v7) := by
  unfold Vexit; rw [Function.update_self]

/-- A buffer that is no array of the region's is as the region found it. -/
theorem heldZ_exit (c : Dev nD) :
    (StableHlo.held (c : Thread nD τ) (Pipeline.ucRefs τ sig \ arrT) (Vpre m c) : sProp 𝕄)
      = StableHlo.held (c : Thread nD τ) (Pipeline.ucRefs τ sig \ arrT) (Vexit m c) :=
  StableHlo.held_congr _ fun b hb => by
    have hne : b ≠ Proc.devRef .tc main_v7 := fun h =>
      (Finset.mem_sdiff.mp hb).2 (by rw [h]; exact Finset.mem_insert_of_mem (Finset.mem_singleton_self _))
    unfold Vexit; rw [Function.update_of_ne hne]
theorem Vexit_v6 (c : Dev nD) : Vexit m c (Proc.devRef .tc main_v6) = Vpre m c (Proc.devRef .tc main_v6) := by
  unfold Vexit; rw [Function.update_of_ne (by decide)]

/-! ## The region -/

/-- THE REGION, entered from every unscoped buffer at what the host operations before it leave: the one array the two
    input windows read is dealt to them by halves, the output's array goes to its window whole, every other buffer
    bypasses the region; the generator register enters the invariant beside the scratch column. At the exit the two
    halves, still at the contents the region found, make the array whole again, and the output's array holds the
    write-backs. -/
def reg0 (hbody : ∀ c, Pipeline.BodyObligationLoose (dats (F := F) m 0 c) (defs₀ (F := F)) Variants.none () Set.univ) : ℝ𝕊 0 where
  win := winFacts₀0
  block_pos := block_pos0
  stage_whole := stage_whole0
  K := PEmpty
  osem k := k.elim
  ho := Pipeline.OwnSemFacts.none _
  hbody := hbody
  hwaits := Pipeline.hwaits_of_owed_zero _ _ _ _ L lv 0 fun _ _ => rfl
  pre c := iprop(StableHlo.held (c : Thread nD τ) (Pipeline.ucRefs τ sig) (Vpre m c) ∗ R c)
  post c := iprop(StableHlo.held (c : Thread nD τ) (Pipeline.ucRefs τ sig) (Vexit m c) ∗ R c)
  X c := iprop(∃ r, prngReg c r)
  Y c := iprop(∃ r, prngReg c r)
  Z c := StableHlo.held (c : Thread nD τ) (Pipeline.ucRefs τ sig \ arrT) (Vpre m c)
  hentry c := by
    rw [Pipeline.ownSems0_none, arrays_open, prefHeld0, StableHlo.held_sub_split _ arrT_sub, heldT_eq, arrAt0_0, arrAt1_0, arrAt2_0]
    iintro ⟨⟨⟨⟨H6, H7⟩, HZ⟩, Hp, HO⟩, -, -⟩
    ihave H6' := (pointsTo_share (PosShare.mem_left_op_right fullShare)).1 $$ H6
    icases H6' with ⟨H6l, H6r⟩
    imodintro
    isplitl [H6l H6r H7]
    · isplitl [H6l]; · iexact H6l
      isplitl [H6r]; · iexact H6r
      iexact H7
    isplitr; · iempintro
    isplitl [HO]; · iapply (owesAt_intro m c 0); iexact HO
    isplitl [Hp]; · iexact Hp
    iexact HZ
  hin c := by
    rw [prefHeld0, scopedRest0_eq, Φ_eq]
    unfold Φ
    simp only [owns_whole]
    iintro ⟨Hp, -, ⟨%f, Hs⟩⟩
    isplitl [Hs]
    · iexists f; isplitr; · ipureintro; intro h; exact (h (by rw [Fin.val_zero])).elim
      iexact Hs
    iexact Hp
  hout c := by
    rw [Pipeline.ownSems0_none, scopedRest0_eq, Φ_eq]
    unfold Φ
    simp only [owns_whole]
    iintro ⟨⟨%X, -, Hs⟩, Hp⟩
    isplitl [Hp]; · iexact Hp
    isplitr; · iempintro
    iexists X; iexact Hs
  hexit c := by
    rw [arrays_open, arrAt0_N, arrAt1_N, arrAt2_N, StableHlo.held_sub_split _ arrT_sub (Vexit m c), heldT_eq, Vexit_v6, ← heldZ_exit]
    iintro ⟨⟨H6l, H6r, H7⟩, HO, Hp, HZ⟩
    ihave H6 := (pointsTo_share (PosShare.mem_left_op_right fullShare)).2 $$ [H6l H6r]
    · isplitl [H6l] <;> iassumption
    imodintro
    isplitl [H6 H7 HZ]
    · isplitl [H6 H7]
      · isplitl [H6] <;> iassumption
      iexact HZ
    isplitl [Hp]; · iexact Hp
    iapply (owesAt_elim m c _); iexact HO

/-! ## @main as segments, and the run -/

/-- @main's five items in order: three host stretches, the region, the host stretch after it. -/
abbrev segs (hbody : ∀ c, Pipeline.BodyObligationLoose (dats (F := F) m 0 c) (defs₀ (F := F)) Variants.none () Set.univ) :
    List (Pipeline.Seg (pcfgs (F := F)) adm (pdats m) () defs₀ Variants.none L lv) :=
  [.host (seg0 m), .host (seg1 m), .host (seg2 m), .region (reg0 m hbody), .host (seg4 m)]

/-- @main is the run of the segments: both are the chain of the same items. -/
theorem main_run (hbody : ∀ c, Pipeline.BodyObligationLoose (dats (F := F) m 0 c) (defs₀ (F := F)) Variants.none () Set.univ) (c : Dev nD) :
    main (F := F) c = Pipeline.Seg.run (segs m hbody) := by
  rw [main_chain, Pipeline.Seg.run_eq_chain]; rfl

/-- An unscoped TensorCore reference is among the unscoped device buffers. -/
theorem mem_ucRefs {b : Ref sig .tc} (hb : b.isScoped = false) : (Proc.devRef .tc b : DevRef τ sig) ∈ Pipeline.ucRefs τ sig :=
  Finset.mem_filter.mpr ⟨Finset.mem_map.mpr ⟨b, Finset.mem_univ _, rfl⟩, by
    rw [show (Proc.devRef .tc b : DevRef τ sig).isScoped = b.isScoped from rfl, hb]; exact Bool.false_ne_true⟩

end RunMain

open RunMain

set_option backward.isDefEq.respectTransparency.types false in
/-- From any memory with zero counters every weakly fair execution of @main terminates, and every unscoped buffer ends
    at the valuation `Vend`: the launch contents through the host operations before the region, the output array as
    the write-backs leave it, then the host operations after the region. -/
theorem run_main (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD, ∀ b : Ref sig .tc, b.isScoped = false →
      r.2.mem ((c.tc : Thread nD τ).loc b) = Vend m c (Proc.devRef .tc b)) :=
  Pipeline.θ_run_regions_kit (pcfgs (F := F)) adm (pdats m) () cellOf_inj emb₁ defs₀ Variants.none L lv m ρ main (segs m hbody)
    (fun c Q => by rw [main_run m hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (Vend m c) ∗ ∃ r, prngReg c r))
    (hch := by
      refine ⟨fun c => .rfl, fun c => .rfl, fun c => .rfl, fun c => ?_, fun c => .rfl, fun c => ?_⟩
      · show iprop(StableHlo.held (c : Thread nD τ) (Pipeline.ucRefs τ sig) (StableHlo.after (hostOps0_2 (F := F)) (Vb m c)) ∗ R c)
          ⊢ iprop(StableHlo.held (c : Thread nD τ) (Pipeline.ucRefs τ sig) (Vpre m c) ∗ R c)
        rw [Vpre_eq]
      · show iprop(StableHlo.held (c : Thread nD τ) (Pipeline.ucRefs τ sig) (StableHlo.after (hostOps1 (F := F)) (Vexit m c)) ∗ R c)
          ⊢ iprop((StableHlo.held (c : Thread nD τ) (Pipeline.ucRefs τ sig) (Vend m c) ∗ ∃ r, prngReg c r)
              ∗ ∃ W, owes (c : Thread nD τ) (0 : CellTallies nD τ sig Unit) W)
        unfold Vend
        iintro ⟨Hh, Hp, HO⟩
        isplitr [HO]
        · isplitl [Hh] <;> iassumption
        · iexact HO)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Vend m c b)
    (hfin := fun c s' => by
      iintro ⟨⟨Hh, -⟩, HSI⟩
      unfold StableHlo.held
      imodintro
      iapply (pointsTo_read_all (Pipeline.ucRefs τ sig) (fun b => ((c : Thread nD τ).1, b)) (Vend m c) s')
      isplitl [Hh] <;> iassumption)
    (hQ := fun s h c b hb => h c (Proc.devRef .tc b) (mem_ucRefs hb))

end Cert.KernelIdeal.Hand

end
-- ==== Proof.Kern.Args.lean ====
/-
  The two argument arrays are written by no host operation and by no write-back: they end as launched.
-/
import proofs.«106766_j60722247631651_1_alg».proof.Proof.Kern.Data
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

/-- A reference that no host operation writes and that is not the region's output array ends as launched: the
    operations after the region leave it, the write-back leaves it, the operations before the region leave it. -/
local macro "arg_untouched" : tactic =>
  `(tactic| (
    unfold Vend Vexit
    refine (StableHlo.after_of_forall_not_mem _ _ (List.forall_iff_forall_mem.mp ?_)).trans ?_
    · simp only [hostOps1, List.Forall, StableHlo.nullary_writes, StableHlo.unary_writes, StableHlo.binary_writes,
        Finset.mem_singleton]
      repeat' apply And.intro
      all_goals exact StableHlo.devRef_ne_of_ne (by decide)
    · refine (Function.update_of_ne (StableHlo.devRef_ne_of_ne (by decide)) _ _).trans ?_
      refine StableHlo.after_of_forall_not_mem _ _ (List.forall_iff_forall_mem.mp ?_)
      simp only [hostOps0, hostOps0_1, hostOps0_2, List.flatten_cons, List.flatten_nil, List.append_nil, List.cons_append,
        List.nil_append, List.Forall, StableHlo.nullary_writes, StableHlo.unary_writes, StableHlo.binary_writes,
        Finset.mem_singleton]
      repeat' apply And.intro
      all_goals exact StableHlo.devRef_ne_of_ne (by decide)))

theorem Vend_arg0 (c : Dev nD) : Vend m c (Proc.devRef .tc main_arg0) = m ((c.tc : Thread nD τ).loc main_arg0) := by
  arg_untouched

theorem Vend_arg1 (c : Dev nD) : Vend m c (Proc.devRef .tc main_arg1) = m ((c.tc : Thread nD τ).loc main_arg1) := by
  arg_untouched

end Cert.KernelIdeal.Hand

end
-- ==== Proof.Kern.Frame.lean ====
/-
  The program's run with every unscoped buffer's final contents named, and from it the frame: the two argument arrays
  end as launched.
-/
import proofs.«106766_j60722247631651_1_alg».proof.Proof.Kern.Body
import proofs.«106766_j60722247631651_1_alg».proof.Proof.Kern.Launch
import proofs.«106766_j60722247631651_1_alg».proof.Proof.Kern.Args

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

/-- Every weakly fair execution terminates with every unscoped buffer at `Vend`. -/
theorem run_all : θ_run defs (onTc (τ := τ) (main (F := F))) ⟨m, fun _ => 0, ρ⟩ (fun r => ∀ c : Dev nD, ∀ b : Ref sig .tc, b.isScoped = false →
    r.2.mem ((c.tc : Thread nD τ).loc b) = Vend m c (Proc.devRef .tc b)) :=
  run_main m ρ fun c => (body_obligation m c).loose

/-- The frame: the program runs to the end and its argument arrays are unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c main_arg0 rfl).trans (Vend_arg0 m c), (h c main_arg1 rfl).trans (Vend_arg1 m c)⟩) (run_all m ρ)

/-- The run with the result buffer named too. -/
theorem run_result : θ_run defs (onTc (τ := τ) (main (F := F))) ⟨m, fun _ => 0, ρ⟩ (fun r => ∀ c : Dev nD,
    r.2.mem ((c.tc : Thread nD τ).loc main_v22) = Vend m c (Proc.devRef .tc main_v22)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨h c main_v22 rfl, (h c main_arg0 rfl).trans (Vend_arg0 m c), (h c main_arg1 rfl).trans (Vend_arg1 m c)⟩) (run_all m ρ)

end Cert.KernelIdeal.Hand

end
-- ==== Proof.KernB.Data.lean ====
/-
  The launch of the row-sum kernel, the data every later module states its lemmas over.

  The kernel walks an 8 × 8 grid over the normalised rows z (8192 × 128): at point (a, b) it multiplies row tile a
  by the transpose of row tile b, exponentiates twice the products, zeroes the diagonal of the whole 8192 × 8192
  matrix, sums each row of the tile and adds the 1024 sums to a running column kept in a scratch buffer; the column is
  reset at b = 0 and copied into the output block a at b = 7. Both input windows read the one array z.
-/
import proofs.«106766_j60722247631651_1_alg».proof.Proof.Gen.Kernel.Launch
import proofs.«106766_j60722247631651_1_alg».proof.Proof.Gen.Kernel.Skeleton
import proofs.«106766_j60722247631651_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] [Cert.Kernel.Facts]

local notation "𝕄" => MT nD τ sig Unit (Elt F) ℕ (UR sig nD τ) ℕ

variable (m : (ℓ : Loc nD τ sig) → Buf (Elt F) ℓ) (ρ : Dev nD → PrngReg)

/-! ## The buffers when the region is entered -/

/-- The host operations before the region, in order: the concatenation, the row norms, the clamp and the quotient. -/
abbrev preOps : List (HloOp τ sig (Elt F)) := List.flatten [hostOps0, hostOps0_1, hostOps0_2]

/-- Core `c`'s buffers as launched, as a valuation. -/
abbrev V₀ (c : Dev nD) : Valuation τ sig (Elt F) := fun b => m ((c : Dev nD), b)

/-- Core `c`'s buffers when the region is entered: the launch contents after the host operations before it. -/
abbrev Vpre (c : Dev nD) : Valuation τ sig (Elt F) := StableHlo.after (preOps (F := F)) (V₀ m c)

/-- The same, by TensorCore reference. -/
abbrev V (c : Dev nD) (b : Ref sig .tc) : Buf (Elt F) ((c : Thread nD τ).loc b) := Vpre m c (Proc.devRef .tc b)

/-! ## The windows' blocks, the staging memrefs, the branch conditions -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, and the scratch column. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024 .f32 := win0_2.stage (cfg0.slots t 2)
abbrev hs0_2 (t : Fin cfg0.N) : (ms0_2 t).IsWhole := hstage0_2 ((cfg0.slots t 2).cast nbuf0_2)
abbrev msS : Memref sig .tc .vmem S1024x1 .f32 := Memref.whole cc0_scratch0
abbrev hsS : (msS).IsWhole := Memref.isWhole_whole _

/-- The running column is reset where the column-tile coordinate is 0, -/
abbrev condReset (i : grid0.Coords) : Prop := (Scalar.cmpi .ne (Scalar.extui (Scalar.cmpi .eq (BitVec.ofNat 32 (i 1).val) 0#32)) 0#32) = 1#1
theorem hcondReset : ∀ t : Fin cfg0.N, condReset (grid0.coords t) ↔ t.val % 8 = 0 :=
  (by decide +kernel : ∀ t : Fin grid0.N, condReset (grid0.coords t) ↔ t.val % 8 = 0)
/-- and written out where it is 7. -/
theorem hcondOut : ∀ t : Fin cfg0.N, k0_cond2 (grid0.coords t) = 1#1 ↔ t.val % 8 = 7 :=
  (by decide +kernel : ∀ t : Fin grid0.N, k0_cond2 (grid0.coords t) = 1#1 ↔ t.val % 8 = 7)

/-! ## The running column -/

/-- What the scratch column holds after the body at position `n`: the point's row sums, over zero at the start of a
    row tile and over what the point before left elsewhere. -/
def accAt (c : Dev nD) : (n : ℕ) → n < cfg0.N → Vec F S1024x1 .f32
  | 0, hn => k0_pay2 (grid0.coords ⟨0, hn⟩) (iblk m c 0 ⟨0, hn⟩) (iblk m c 1 ⟨0, hn⟩) (k0_pay1 (F := F))
  | n + 1, hn =>
    if h0 : (n + 1) % 8 = 0 then
      k0_pay2 (grid0.coords ⟨n + 1, hn⟩) (iblk m c 0 ⟨n + 1, hn⟩) (iblk m c 1 ⟨n + 1, hn⟩) (k0_pay1 (F := F))
    else
      k0_pay2 (grid0.coords ⟨n + 1, hn⟩) (iblk m c 0 ⟨n + 1, hn⟩) (iblk m c 1 ⟨n + 1, hn⟩) (accAt c n (Nat.lt_of_succ_lt hn))

theorem accAt_reset (c : Dev nD) (t : Fin cfg0.N) (h0 : t.val % 8 = 0) :
    accAt m c t.val t.isLt = k0_pay2 (grid0.coords t) (iblk m c 0 t) (iblk m c 1 t) (k0_pay1 (F := F)) := by
  obtain ⟨n, hn⟩ := t
  cases n with
  | zero => exact rfl
  | succ n => exact (dif_pos h0).trans rfl

theorem accAt_step (c : Dev nD) (t : Fin cfg0.N) (h0 : ¬t.val % 8 = 0) :
    accAt m c t.val t.isLt = k0_pay2 (grid0.coords t) (iblk m c 0 t) (iblk m c 1 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The same at any position, zero past the grid. -/
def accTot (c : Dev nD) (n : ℕ) : Vec F S1024x1 .f32 := if h : n < cfg0.N then accAt m c n h else k0_pay1 (F := F)

/-! ## The pipeline's proof data -/

/-- The invariant between points: the scratch column at the running sums (anything at the start of a row tile) and the
    generator register. -/
def Φ (c : Dev nD) (t : Fin (cfg0.N + 1)) : sProp 𝕄 :=
  iprop((∃ X : Vec F S1024x1 .f32, ⌜t.val % 8 ≠ 0 → X = accTot m c (t.val - 1)⌝ ∗ owns (c : Thread nD τ) msS fullShare X) ∗ ∃ r, prngReg c r)

/-- The proof data on core `c`: the arrays as the region finds them; after the body at point `t` each input's buffer at
    its block and the output's at the running column laid out as a row; the two input windows each hold half of the one
    array they read; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (accAt m c t.val t.isLt)
  Φ t := Φ m c t
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = k0_pay3 (accAt m c t.val t.isLt) := by dsimp only [dats]; rfl
theorem Φ_eq (c : Dev nD) (t : Fin (cfg0.N + 1)) : (dats m 0 c).Φ t = Φ m c t := by dsimp only [dats]

/-! ## The buffers after the region and at the end -/

/-- The output array when the region ends: the library's account of the write-backs. -/
abbrev denomArr (c : Dev nD) : Buf (Elt F) ((c : Thread nD τ).loc main_v7) := (dats m 0 c).arrAt 2 cfg0.N

/-- Core `c`'s buffers when the region ends: the output array written, everything else as the region found it. -/
def Vexit (c : Dev nD) : Valuation τ sig (Elt F) := Function.update (Vpre m c) (Proc.devRef .tc main_v7) (denomArr m c)

/-- Core `c`'s buffers at the return: after the host operations that follow the region. -/
def Vend (c : Dev nD) : Valuation τ sig (Elt F) := StableHlo.after (hostOps1 (F := F)) (Vexit m c)

end Cert.Kernel.Hand

end
-- ==== Proof.KernB.Body.lean ====
/-
  The body of the row-sum kernel at a grid point: it reads its two row tiles, adds the tile's masked exponential row
  sums to the running column (reset first where the column tile is 0) and, where the column tile is 7, copies the
  column into the output block.
-/
import proofs.«106766_j60722247631651_1_alg».proof.Proof.KernB.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] [Cert.Kernel.Facts]

local notation "𝕄" => MT nD τ sig Unit (Elt F) ℕ (UR sig nD τ) ℕ

variable (m : (ℓ : Loc nD τ sig) → Buf (Elt F) ℓ) (ρ : Dev nD → PrngReg)

/-! ## Stores and loads through the whole-shape rectangle

Every store and load of the body goes through the rectangle that is the buffer's whole shape at zero offsets: such a
store leaves its payload whatever was there, such a load reads the contents. -/

/-- The zero offsets, however spelt. -/
theorem hz2 : (![0, 0] : Fin 2 → Nat) = fun _ => 0 := funext fun a => by fin_cases a <;> rfl
theorem hz1 : (![0] : Fin 1 → Nat) = fun _ => 0 := funext fun a => by fin_cases a <;> rfl

/-- A buffer whose LAST store went through the whole-shape rectangle at zero offsets reads that store's payload. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The body on any whole memrefs, case by case

The three runs are stated over arbitrary whole memrefs and an arbitrary grid point, with the case's two branch
conditions as hypotheses; the row tiles are `x0`, `x1`, the running column on entry is `X`. Each run names what every
buffer holds afterwards as a payload of what it held before. -/

set_option maxHeartbeats 1000000 in
/-- Column tile 0: the running column, whatever it held, is zeroed and then receives the tile's row sums; the output
    block is not touched. -/
theorem run_reset (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024x1 .f32) (harg5 : arg5.IsWhole) (hc0 : condReset i) (hc1 : ¬k0_cond2 i = 1#1)
    (x0 x1 : Vec F S1024x128 .bf16) (xi : Vec F S1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 i x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  sl_unfold_words
  -- the last store covers the column; the load before it read back the zeros just stored
  rw [read_writes_unit_zero _ _ hz2]
  simp only [View.readAt_eq_ld, hf0, hf1, View.ld_unit_zero (S := S1024x128) hz2, View.readCov_unit_zero (S := S1024x1) _ hz2]

set_option maxHeartbeats 1000000 in
/-- Column tiles 1 to 6: the running column receives the tile's row sums on top of what it held; the output block is
    not touched. -/
theorem run_step (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024x1 .f32) (harg5 : arg5.IsWhole) (hc0 : ¬condReset i) (hc1 : ¬k0_cond2 i = 1#1)
    (x0 x1 : Vec F S1024x128 .bf16) (X : Vec F S1024x1 .f32) (xi : Vec F S1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare X
        ∗ (iprop(owns (c : Thread nD τ) arg2 fullShare x0 ∗ owns (c : Thread nD τ) arg3 fullShare x1 ∗ owns (c : Thread nD τ) arg4 fullShare xi ∗ owns (c : Thread nD τ) arg5 fullShare (k0_pay2 i x0 x1 X)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  rw [read_writes_unit_zero _ _ hz2]
  simp only [View.readAt_eq_ld, hf0, hf1, hf5, View.ld_unit_zero (S := S1024x128) hz2, View.ld_unit_zero (S := S1024x1) hz2]

set_option maxHeartbeats 1000000 in
/-- Column tile 7: the running column receives the tile's row sums on top of what it held, and the output block,
    whatever it held, receives the column laid out as a row. -/
theorem run_out (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024 .f32) (harg4 : arg4.IsWhole) (arg5 : Memref sig .tc .vmem S1024x1 .f32) (harg5 : arg5.IsWhole) (hc0 : ¬condReset i) (hc1 : k0_cond2 i = 1#1)
    (x0 x1 : Vec F S1024x128 .bf16) (X : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare X
        ∗ (iprop(owns (c : Thread nD τ) arg2 fullShare x0 ∗ owns (c : Thread nD τ) arg3 fullShare x1 ∗ owns (c : Thread nD τ) arg4 fullShare (k0_pay3 (k0_pay2 i x0 x1 X)) ∗ owns (c : Thread nD τ) arg5 fullShare (k0_pay2 i x0 x1 X)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_words
    -- the one store covers the output block; its payload read the column back after the column's store
    rw [read_writes_unit_zero _ _ hz1]
    simp only [View.readCov_unit_zero (S := S1024x1) _ hz2, View.readAt_eq_ld, hf0, hf1, hf5,
      View.ld_unit_zero (S := S1024x128) hz2, View.ld_unit_zero (S := S1024x1) hz2]
  iexists _; isplitr
  swap; · iexact H5
  ipureintro
  sl_unfold_words
  rw [read_writes_unit_zero _ _ hz2]
  simp only [View.readAt_eq_ld, hf0, hf1, hf5, View.ld_unit_zero (S := S1024x128) hz2, View.ld_unit_zero (S := S1024x1) hz2]

/-! ## What the windows' buffers hold when the body runs, and what it must leave -/

/-- Each row tile's current buffer holds its block at every point, fetched there or not: an input window is never
    idle and is not cut, and where it is not fetched its block index has not moved. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; rfl) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; rfl) t d).trans
    (by unfold Dat.fetched Dat.blockOf iblk; rw [A_eq]; rfl)

/-- The row tiles' buffers are to be left at their blocks (the input windows are live everywhere). -/
theorem leaves0_0 (c : Dev nD) (t : Fin cfg0.N) :
    (dats m 0 c).leavesExact 0 t = owns (c : Thread nD τ) (ms0_0 t) fullShare (iblk m c 0 t) := by
  unfold Dat.leavesExact; rw [show cfg0.idle 0 (cfg0.grid.coords t) = false from rfl, after0_0]; rfl
theorem leaves0_1 (c : Dev nD) (t : Fin cfg0.N) :
    (dats m 0 c).leavesExact 1 t = owns (c : Thread nD τ) (ms0_1 t) fullShare (iblk m c 1 t) := by
  unfold Dat.leavesExact; rw [show cfg0.idle 1 (cfg0.grid.coords t) = false from rfl, after0_1]; rfl

/-- The output window is idle exactly where the write-out branch is not taken, -/
theorem idle0_2_of (i : grid0.Coords) (h : ¬k0_cond2 i = 1#1) : cfg0.idle 2 i = true := by
  show (!(k0_cond2 i == 1#1)) = true
  rw [Bool.not_eq_true', beq_eq_false_iff_ne]; exact h
theorem live0_2_of (i : grid0.Coords) (h : k0_cond2 i = 1#1) : cfg0.idle 2 i = false := by
  show (!(k0_cond2 i == 1#1)) = false
  rw [h]; rfl

/-- so off column tile 7 its buffer is to be handed back as found, -/
theorem leaves0_2_idle (c : Dev nD) (t : Fin cfg0.N) (h7 : ¬t.val % 8 = 7) :
    (dats m 0 c).leavesExact 2 t = iprop(∃ d, owns (c : Thread nD τ) (ms0_2 t) fullShare ((dats m 0 c).before 2 t d)) :=
  Dat.leavesExact_idle (dats m 0 c) 2 t (idle0_2_of _ fun h => h7 ((hcondOut t).mp h))
    (Bool.eq_false_iff.mpr fun h => h7 ((flush0_2 t).mp h))
/-- and at column tile 7 left at the running column laid out as a row. -/
theorem leaves0_2_live (c : Dev nD) (t : Fin cfg0.N) (h7 : t.val % 8 = 7) :
    (dats m 0 c).leavesExact 2 t = owns (c : Thread nD τ) (ms0_2 t) fullShare (k0_pay3 (accAt m c t.val t.isLt)) := by
  unfold Dat.leavesExact; rw [live0_2_of _ ((hcondOut t).mpr h7), after0_2]; rfl

/-- The running column after point `t`, as the invariant before point `t + 1` names it, -/
theorem accTot_succ (c : Dev nD) (t : Fin cfg0.N) : accTot m c (t.succ.val - 1) = accAt m c t.val t.isLt := by
  rw [show t.succ.val - 1 = t.val from by rw [Fin.val_succ]; exact Nat.add_sub_cancel _ _]
  exact dif_pos t.isLt
/-- and the one before point `t`. -/
theorem accTot_pred (c : Dev nD) (t : Fin cfg0.N) :
    accTot m c (t.castSucc.val - 1) = accAt m c (t.val - 1) (Nat.lt_of_le_of_lt (Nat.sub_le _ _) t.isLt) := by
  rw [show t.castSucc.val = t.val from rfl]
  exact dif_pos _

/-! ## The body obligation, at a generic point -/

/-- What the body is called with at point `t` (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
/-- The body at any point. The row tiles' buffers hold their blocks; the column-tile coordinate says which of the three
    runs applies. At column tile 0 the invariant hands over the running column at anything; elsewhere at the sums the
    point before left. The run returns it at this point's sums (`accAt_reset` / `accAt_step`), which the invariant
    before the next point names; the output buffer comes back as found, or at column tile 7 at the sums laid out as a
    row; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, Φ_eq, Φ_eq, leaves0_0, leaves0_1]
  unfold Φ
  have hN : t.val < 64 := lt_of_lt_of_eq t.isLt (show cfg0.N = 64 from N_0)
  by_cases h0 : t.val % 8 = 0
  · have h7 : ¬t.val % 8 = 7 := by omega
    rw [leaves0_2_idle m c t h7]
    iintro ⟨⟨⟨%X, -, HS⟩, Hg⟩, Ho, ⟨%d0, H0⟩, ⟨%d1, H1⟩, ⟨%d2, H2⟩⟩
    iapply (run_reset c (grid0.coords t) _ _ _ _ _ _ _ _ ((hcondReset t).mpr h0) (fun h => h7 ((hcondOut t).mp h))
      (iblk m c 0 t) (iblk m c 1 t) ((dats m 0 c).before 2 t d2) Set.univ _)
    isplitl [H0]; · iexact H0
    isplitl [H1]; · iexact H1
    isplitl [H2]; · iexact H2
    isplitl [HS]; · iexists _; iexact HS
    iintro ⟨H0, H1, H2, HS⟩
    isplitl [HS Hg]
    · isplitl [HS]
      · iexists _; isplitr
        swap; · iexact HS
        ipureintro; intro _; rw [accTot_succ, accAt_reset m c t h0]
      iexact Hg
    isplitl [Ho]; · iexact Ho
    isplitl [H0]; · iexact H0
    isplitl [H1]; · iexact H1
    iexists _; iexact H2
  · by_cases h7 : t.val % 8 = 7
    · rw [leaves0_2_live m c t h7]
      iintro ⟨⟨⟨%X, %hX, HS⟩, Hg⟩, Ho, ⟨%d0, H0⟩, ⟨%d1, H1⟩, ⟨%d2, H2⟩⟩
      obtain rfl := (hX h0).trans (accTot_pred m c t)
      rw [accAt_step m c t h0]
      iapply (run_out c (grid0.coords t) _ _ _ _ _ _ _ _ (fun h => h0 ((hcondReset t).mp h)) ((hcondOut t).mpr h7)
        (iblk m c 0 t) (iblk m c 1 t) _ Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]
        · iexists _; isplitr
          swap; · iexact HS
          ipureintro; intro _; rw [accTot_succ, accAt_step m c t h0]
        iexact Hg
      isplitl [Ho]; · iexact Ho
      isplitl [H0]; · iexact H0
      isplitl [H1]; · iexact H1
      iexact H2
    · rw [leaves0_2_idle m c t h7]
      iintro ⟨⟨⟨%X, %hX, HS⟩, Hg⟩, Ho, ⟨%d0, H0⟩, ⟨%d1, H1⟩, ⟨%d2, H2⟩⟩
      obtain rfl := (hX h0).trans (accTot_pred m c t)
      iapply (run_step c (grid0.coords t) _ _ _ _ _ _ _ _ (fun h => h0 ((hcondReset t).mp h)) (fun h => h7 ((hcondOut t).mp h))
        (iblk m c 0 t) (iblk m c 1 t) _ ((dats m 0 c).before 2 t d2) Set.univ _)
      isplitl [H0]; · iexact H0
      isplitl [H1]; · iexact H1
      isplitl [H2]; · iexact H2
      isplitl [HS]; · iexact HS
      iintro ⟨H0, H1, H2, HS⟩
      isplitl [HS Hg]
      · isplitl [HS]
        · iexists _; isplitr
          swap; · iexact HS
          ipureintro; intro _; rw [accTot_succ, accAt_step m c t h0]
        iexact Hg
      isplitl [Ho]; · iexact Ho
      isplitl [H0]; · iexact H0
      isplitl [H1]; · iexact H1
      iexists _; iexact H2

/-- The body at every point meets the pipeline's obligation for the proof data `dats`. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernB.Launch.lean ====
/-
  The run of the whole program from the body's obligation: the host operations before the region, the region with its
  two input windows on one array, the host operations after it.
-/
import proofs.«106766_j60722247631651_1_alg».proof.Proof.KernB.Data
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] [Cert.Kernel.Facts]

local notation "𝕄" => MT nD τ sig Unit (Elt F) ℕ (UR sig nD τ) ℕ

variable (m : (ℓ : Loc nD τ sig) → Buf (Elt F) ℓ) (ρ : Dev nD → PrngReg)

namespace RunMain

/-! ## The pipeline's proof data as a family, the levels, what rides along -/

/-- The prefetched tables' admissible contents: the pipeline has no table. -/
abbrev adm : (p : Fin 1) → (pcfgs (F := F) p).Adm := fun p => (cfgs p).toPCfg_adm

/-- The proof data as the family over the program's one pipeline. -/
abbrev pdats : (p : Fin 1) → (c : Dev nD) → Dat τ (Elt F) Unit ℕ (UR sig nD τ) ℕ (Pipeline.pin (pcfgs (F := F)) adm p) c :=
  fun p c => dats m p c

/-- No core owes anything at launch: no level is assigned. -/
abbrev L : GSem nD τ sig → Finset Unit := fun _ => ∅
abbrev lv : GSem nD τ sig → Unit → ℕ := fun _ _ => 0

/-- Beside the buffers, between any two items: the generator register at some value, the core owing nothing. -/
abbrev R (c : Dev nD) : sProp 𝕄 := iprop((∃ r, prngReg c r) ∗ ∃ W, owes (c : Thread nD τ) (0 : CellTallies nD τ sig Unit) W)

local notation "ℍ" => Pipeline.HostSeg (Name := ℕ) (U := UR sig nD τ) (pcfgs (F := F)) defs₀ Variants.none L lv
local notation "ℝ𝕊" => Pipeline.RegionSeg (pcfgs (F := F)) adm (pdats m) () defs₀ Variants.none L lv

/-! ## The host stretches -/

theorem sub_of_forall {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op (List.forall_iff_forall_mem.mp h op hop)

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The valuations between the three stretches before the region. -/
abbrev Va (c : Dev nD) : Valuation τ sig (Elt F) := StableHlo.after (hostOps0 (F := F)) (V₀ m c)
abbrev Vb (c : Dev nD) : Valuation τ sig (Elt F) := StableHlo.after (hostOps0_1 (F := F)) (Va m c)

/-- Run one after the other the three stretches leave what their concatenation leaves. -/
theorem Vpre_eq (c : Dev nD) : StableHlo.after (hostOps0_2 (F := F)) (Vb m c) = Vpre m c := by
  show _ = StableHlo.after (List.flatten [hostOps0, hostOps0_1, hostOps0_2]) (V₀ m c)
  rw [List.flatten_cons, List.flatten_cons, List.flatten_cons, List.flatten_nil, List.append_nil,
    StableHlo.after_append, StableHlo.after_append]

def seg0 : ℍ := Pipeline.HostSeg.ofOps _ _ _ _ _ (Pipeline.ucRefs τ sig) hostOps0 (sub_of_forall hostOps0_sub) fresh0 (V₀ m) R
def seg1 : ℍ := Pipeline.HostSeg.ofOps _ _ _ _ _ (Pipeline.ucRefs τ sig) hostOps0_1 (sub_of_forall hostOps0_1_sub) fresh0_1 (Va m) R
def seg2 : ℍ := Pipeline.HostSeg.ofOps _ _ _ _ _ (Pipeline.ucRefs τ sig) hostOps0_2 (sub_of_forall hostOps0_2_sub) fresh0_2 (Vb m) R
def seg4 : ℍ := Pipeline.HostSeg.ofOps _ _ _ _ _ (Pipeline.ucRefs τ sig) hostOps1 (sub_of_forall hostOps1_sub) fresh1 (Vexit m) R

/-! ## The region's arrays: one buffer dealt to two input windows by halves, the output's whole -/

/-- The three windows' arrays at any contents, opened: the two input windows each hold half of the one array both
    read, the output window its array whole. -/
theorem arrays_open (c : Dev nD) (Fa : (w : Fin cfg0.W) → Buf (Elt F) ((cfg0.win w).arr.view.loc (c : Thread nD τ))) :
    ((dats m 0 c).arrays Fa : sProp 𝕄)
      = iprop((((c : Thread nD τ).loc main_v6) ↦{fullShare.left} Fa (0 : Fin 3)) ∗ (((c : Thread nD τ).loc main_v6) ↦{fullShare.right} Fa (1 : Fin 3))
          ∗ (((c : Thread nD τ).loc main_v7) ↦{fullShare} Fa (2 : Fin 3))) := by
  unfold Pipeline.Dat.arrays
  rw [bigSep_W0]
  have h0 : (cfg0.win (0 : Fin 3)).arr.view.set = Finset.univ := (arr_whole0 0).set_eq_univ
  have h2 : (cfg0.win (2 : Fin 3)).arr.view.set = Finset.univ := (arr_whole0 2).set_eq_univ
  rw [h0, h2]
  rfl

/-- The two buffers behind the windows' arrays, as device buffers, -/
abbrev arrT : Finset (DevRef τ sig) := {Proc.devRef .tc main_v6, Proc.devRef .tc main_v7}
/-- both unscoped. -/
theorem arrT_sub : (arrT : Finset (DevRef τ sig)) ⊆ Pipeline.ucRefs τ sig := by decide

/-- The two held whole at a valuation. -/
theorem heldT_eq (c : Dev nD) (W : Valuation τ sig (Elt F)) : (StableHlo.held (c : Thread nD τ) arrT W : sProp 𝕄)
    = iprop((((c : Thread nD τ).loc main_v6) ↦{fullShare} W (Proc.devRef .tc main_v6)) ∗ (((c : Thread nD τ).loc main_v7) ↦{fullShare} W (Proc.devRef .tc main_v7))) := by
  unfold StableHlo.held
  rw [bigSep_eq_bigSepL_of_eq [Proc.devRef .tc main_v6, Proc.devRef .tc main_v7] (by decide) (by decide)]
  rfl

/-- The pipeline prefetches no table. -/
theorem prefHeld0 (c : Dev nD) (q) (pf) :
    (Pipeline.prefHeld (Ix := Unit) (Name := ℕ) (U := UR sig nD τ) (Lvl := ℕ) (Val := Elt F) (pcfgs (F := F) 0).pre c q pf : sProp 𝕄) = BI.emp := by
  unfold Pipeline.prefHeld; rw [show (Finset.univ : Finset (Fin 0)) = ∅ from rfl, BI.bigSep_empty]

/-- The core's `owes` as the pipeline's at a point, the proof data owing nothing and bounding its recorded pairs by
    nothing; and back. -/
theorem owesAt_intro (c : Dev nD) (t : Fin (cfg0.N + 1)) :
    iprop(∃ W, owes (c : Thread nD τ) (0 : CellTallies nD τ sig Unit) W) ⊢ ((dats m 0 c).owesAt () t : sProp 𝕄) := by
  unfold Pipeline.Dat.owesAt Pipeline.owesWithin Pipeline.Dat.bound
  rw [show (dats m 0 c).owed t = 0 from rfl, show (dats m 0 c).recorded t = Set.univ from rfl]
  iintro ⟨%W, HO⟩; iexists W; isplitr; · ipureintro; exact fun _ _ => Or.inl trivial
  iexact HO
theorem owesAt_elim (c : Dev nD) (t : Fin (cfg0.N + 1)) :
    ((dats m 0 c).owesAt () t : sProp 𝕄) ⊢ iprop(∃ W, owes (c : Thread nD τ) (0 : CellTallies nD τ sig Unit) W) := by
  unfold Pipeline.Dat.owesAt Pipeline.owesWithin
  rw [show (dats m 0 c).owed t = 0 from rfl]
  iintro ⟨%W, -, HO⟩; iexists W; iexact HO

/-- What the windows' arrays hold when the region is entered, -/
theorem arrAt0_0 (c : Dev nD) : (dats m 0 c).arrAt (0 : Fin 3) 0 = Vpre m c (Proc.devRef .tc main_v6) := rfl
theorem arrAt1_0 (c : Dev nD) : (dats m 0 c).arrAt (1 : Fin 3) 0 = Vpre m c (Proc.devRef .tc main_v6) := rfl
theorem arrAt2_0 (c : Dev nD) : (dats m 0 c).arrAt (2 : Fin 3) 0 = Vpre m c (Proc.devRef .tc main_v7) := rfl
/-- and when it ends: an input window's array is never written. -/
theorem arrAt0_N (c : Dev nD) : (dats m 0 c).arrAt (0 : Fin 3) cfg0.N = Vpre m c (Proc.devRef .tc main_v6) :=
  ((dats m 0 c).arrAt_in (0 : Fin 3) rfl cfg0.N).trans rfl
theorem arrAt1_N (c : Dev nD) : (dats m 0 c).arrAt (1 : Fin 3) cfg0.N = Vpre m c (Proc.devRef .tc main_v6) :=
  ((dats m 0 c).arrAt_in (1 : Fin 3) rfl cfg0.N).trans rfl
theorem arrAt2_N (c : Dev nD) : (dats m 0 c).arrAt (2 : Fin 3) cfg0.N = Vexit m c (Proc.devRef .tc main_v7) := by
  unfold Vexit; rw [Function.update_self]

/-- A buffer that is no array of the region's is as the region found it. -/
theorem heldZ_exit (c : Dev nD) :
    (StableHlo.held (c : Thread nD τ) (Pipeline.ucRefs τ sig \ arrT) (Vpre m c) : sProp 𝕄)
      = StableHlo.held (c : Thread nD τ) (Pipeline.ucRefs τ sig \ arrT) (Vexit m c) :=
  StableHlo.held_congr _ fun b hb => by
    have hne : b ≠ Proc.devRef .tc main_v7 := fun h =>
      (Finset.mem_sdiff.mp hb).2 (by rw [h]; exact Finset.mem_insert_of_mem (Finset.mem_singleton_self _))
    unfold Vexit; rw [Function.update_of_ne hne]
theorem Vexit_v6 (c : Dev nD) : Vexit m c (Proc.devRef .tc main_v6) = Vpre m c (Proc.devRef .tc main_v6) := by
  unfold Vexit; rw [Function.update_of_ne (by decide)]

/-! ## The region -/

/-- THE REGION, entered from every unscoped buffer at what the host operations before it leave: the one array the two
    input windows read is dealt to them by halves, the output's array goes to its window whole, every other buffer
    bypasses the region; the generator register enters the invariant beside the scratch column. At the exit the two
    halves, still at the contents the region found, make the array whole again, and the output's array holds the
    write-backs. -/
def reg0 (hbody : ∀ c, Pipeline.BodyObligationLoose (dats (F := F) m 0 c) (defs₀ (F := F)) Variants.none () Set.univ) : ℝ𝕊 0 where
  win := winFacts₀0
  block_pos := block_pos0
  stage_whole := stage_whole0
  K := PEmpty
  osem k := k.elim
  ho := Pipeline.OwnSemFacts.none _
  hbody := hbody
  hwaits := Pipeline.hwaits_of_owed_zero _ _ _ _ L lv 0 fun _ _ => rfl
  pre c := iprop(StableHlo.held (c : Thread nD τ) (Pipeline.ucRefs τ sig) (Vpre m c) ∗ R c)
  post c := iprop(StableHlo.held (c : Thread nD τ) (Pipeline.ucRefs τ sig) (Vexit m c) ∗ R c)
  X c := iprop(∃ r, prngReg c r)
  Y c := iprop(∃ r, prngReg c r)
  Z c := StableHlo.held (c : Thread nD τ) (Pipeline.ucRefs τ sig \ arrT) (Vpre m c)
  hentry c := by
    rw [Pipeline.ownSems0_none, arrays_open, prefHeld0, StableHlo.held_sub_split _ arrT_sub, heldT_eq, arrAt0_0, arrAt1_0, arrAt2_0]
    iintro ⟨⟨⟨⟨H6, H7⟩, HZ⟩, Hp, HO⟩, -, -⟩
    ihave H6' := (pointsTo_share (PosShare.mem_left_op_right fullShare)).1 $$ H6
    icases H6' with ⟨H6l, H6r⟩
    imodintro
    isplitl [H6l H6r H7]
    · isplitl [H6l]; · iexact H6l
      isplitl [H6r]; · iexact H6r
      iexact H7
    isplitr; · iempintro
    isplitl [HO]; · iapply (owesAt_intro m c 0); iexact HO
    isplitl [Hp]; · iexact Hp
    iexact HZ
  hin c := by
    rw [prefHeld0, scopedRest0_eq, Φ_eq]
    unfold Φ
    simp only [owns_whole]
    iintro ⟨Hp, -, ⟨%f, Hs⟩⟩
    isplitl [Hs]
    · iexists f; isplitr; · ipureintro; intro h; exact (h (by rw [Fin.val_zero])).elim
      iexact Hs
    iexact Hp
  hout c := by
    rw [Pipeline.ownSems0_none, scopedRest0_eq, Φ_eq]
    unfold Φ
    simp only [owns_whole]
    iintro ⟨⟨%X, -, Hs⟩, Hp⟩
    isplitl [Hp]; · iexact Hp
    isplitr; · iempintro
    iexists X; iexact Hs
  hexit c := by
    rw [arrays_open, arrAt0_N, arrAt1_N, arrAt2_N, StableHlo.held_sub_split _ arrT_sub (Vexit m c), heldT_eq, Vexit_v6, ← heldZ_exit]
    iintro ⟨⟨H6l, H6r, H7⟩, HO, Hp, HZ⟩
    ihave H6 := (pointsTo_share (PosShare.mem_left_op_right fullShare)).2 $$ [H6l H6r]
    · isplitl [H6l] <;> iassumption
    imodintro
    isplitl [H6 H7 HZ]
    · isplitl [H6 H7]
      · isplitl [H6] <;> iassumption
      iexact HZ
    isplitl [Hp]; · iexact Hp
    iapply (owesAt_elim m c _); iexact HO

/-! ## @main as segments, and the run -/

/-- @main's five items in order: three host stretches, the region, the host stretch after it. -/
abbrev segs (hbody : ∀ c, Pipeline.BodyObligationLoose (dats (F := F) m 0 c) (defs₀ (F := F)) Variants.none () Set.univ) :
    List (Pipeline.Seg (pcfgs (F := F)) adm (pdats m) () defs₀ Variants.none L lv) :=
  [.host (seg0 m), .host (seg1 m), .host (seg2 m), .region (reg0 m hbody), .host (seg4 m)]

/-- @main is the run of the segments: both are the chain of the same items. -/
theorem main_run (hbody : ∀ c, Pipeline.BodyObligationLoose (dats (F := F) m 0 c) (defs₀ (F := F)) Variants.none () Set.univ) (c : Dev nD) :
    main (F := F) c = Pipeline.Seg.run (segs m hbody) := by
  rw [main_chain, Pipeline.Seg.run_eq_chain]; rfl

/-- An unscoped TensorCore reference is among the unscoped device buffers. -/
theorem mem_ucRefs {b : Ref sig .tc} (hb : b.isScoped = false) : (Proc.devRef .tc b : DevRef τ sig) ∈ Pipeline.ucRefs τ sig :=
  Finset.mem_filter.mpr ⟨Finset.mem_map.mpr ⟨b, Finset.mem_univ _, rfl⟩, by
    rw [show (Proc.devRef .tc b : DevRef τ sig).isScoped = b.isScoped from rfl, hb]; exact Bool.false_ne_true⟩

end RunMain

open RunMain

set_option backward.isDefEq.respectTransparency.types false in
/-- From any memory with zero counters every weakly fair execution of @main terminates, and every unscoped buffer ends
    at the valuation `Vend`: the launch contents through the host operations before the region, the output array as
    the write-backs leave it, then the host operations after the region. -/
theorem run_main (hbody : ∀ c, Pipeline.BodyObligationLoose (dats (F := F) m 0 c) (defs₀ (F := F)) Variants.none () Set.univ) :
    θ_run defs (onTc (τ := τ) (main (F := F))) ⟨m, fun _ => 0, ρ⟩ (fun r => ∀ c : Dev nD, ∀ b : Ref sig .tc, b.isScoped = false →
      r.2.mem ((c.tc : Thread nD τ).loc b) = Vend m c (Proc.devRef .tc b)) :=
  Pipeline.θ_run_regions_kit (pcfgs (F := F)) adm (pdats m) () cellOf_inj emb₁ defs₀ Variants.none L lv m ρ main (segs m hbody)
    (fun c Q => by rw [main_run m hbody c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) (Pipeline.ucRefs τ sig) (Vend m c) ∗ ∃ r, prngReg c r))
    (hch := by
      refine ⟨fun c => .rfl, fun c => .rfl, fun c => .rfl, fun c => ?_, fun c => .rfl, fun c => ?_⟩
      · show iprop(StableHlo.held (c : Thread nD τ) (Pipeline.ucRefs τ sig) (StableHlo.after (hostOps0_2 (F := F)) (Vb m c)) ∗ R c)
          ⊢ iprop(StableHlo.held (c : Thread nD τ) (Pipeline.ucRefs τ sig) (Vpre m c) ∗ R c)
        rw [Vpre_eq]
      · show iprop(StableHlo.held (c : Thread nD τ) (Pipeline.ucRefs τ sig) (StableHlo.after (hostOps1 (F := F)) (Vexit m c)) ∗ R c)
          ⊢ iprop((StableHlo.held (c : Thread nD τ) (Pipeline.ucRefs τ sig) (Vend m c) ∗ ∃ r, prngReg c r)
              ∗ ∃ W, owes (c : Thread nD τ) (0 : CellTallies nD τ sig Unit) W)
        unfold Vend
        iintro ⟨Hh, Hp, HO⟩
        isplitr [HO]
        · isplitl [Hh] <;> iassumption
        · iexact HO)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Vend m c b)
    (hfin := fun c s' => by
      iintro ⟨⟨Hh, -⟩, HSI⟩
      unfold StableHlo.held
      imodintro
      iapply (pointsTo_read_all (Pipeline.ucRefs τ sig) (fun b => ((c : Thread nD τ).1, b)) (Vend m c) s')
      isplitl [Hh] <;> iassumption)
    (hQ := fun s h c b hb => h c (Proc.devRef .tc b) (mem_ucRefs hb))

end Cert.Kernel.Hand

end
-- ==== Proof.KernB.Args.lean ====
/-
  The two argument arrays are written by no host operation and by no write-back: they end as launched.
-/
import proofs.«106766_j60722247631651_1_alg».proof.Proof.KernB.Data
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] [Cert.Kernel.Facts]

local notation "𝕄" => MT nD τ sig Unit (Elt F) ℕ (UR sig nD τ) ℕ

variable (m : (ℓ : Loc nD τ sig) → Buf (Elt F) ℓ) (ρ : Dev nD → PrngReg)

/-- A reference that no host operation writes and that is not the region's output array ends as launched: the
    operations after the region leave it, the write-back leaves it, the operations before the region leave it. -/
local macro "arg_untouched" : tactic =>
  `(tactic| (
    unfold Vend Vexit
    refine (StableHlo.after_of_forall_not_mem _ _ (List.forall_iff_forall_mem.mp ?_)).trans ?_
    · simp only [hostOps1, List.Forall, StableHlo.nullary_writes, StableHlo.unary_writes, StableHlo.binary_writes,
        Finset.mem_singleton]
      repeat' apply And.intro
      all_goals exact StableHlo.devRef_ne_of_ne (by decide)
    · refine (Function.update_of_ne (StableHlo.devRef_ne_of_ne (by decide)) _ _).trans ?_
      refine StableHlo.after_of_forall_not_mem _ _ (List.forall_iff_forall_mem.mp ?_)
      simp only [hostOps0, hostOps0_1, hostOps0_2, List.flatten_cons, List.flatten_nil, List.append_nil, List.cons_append,
        List.nil_append, List.Forall, StableHlo.nullary_writes, StableHlo.unary_writes, StableHlo.binary_writes,
        Finset.mem_singleton]
      repeat' apply And.intro
      all_goals exact StableHlo.devRef_ne_of_ne (by decide)))

theorem Vend_arg0 (c : Dev nD) : Vend m c (Proc.devRef .tc main_arg0) = m ((c.tc : Thread nD τ).loc main_arg0) := by
  arg_untouched

theorem Vend_arg1 (c : Dev nD) : Vend m c (Proc.devRef .tc main_arg1) = m ((c.tc : Thread nD τ).loc main_arg1) := by
  arg_untouched

end Cert.Kernel.Hand

end
-- ==== Proof.KernB.Frame.lean ====
/-
  The program's run with every unscoped buffer's final contents named, and from it the frame: the two argument arrays
  end as launched.
-/
import proofs.«106766_j60722247631651_1_alg».proof.Proof.KernB.Body
import proofs.«106766_j60722247631651_1_alg».proof.Proof.KernB.Launch
import proofs.«106766_j60722247631651_1_alg».proof.Proof.KernB.Args

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] [Cert.Kernel.Facts]

local notation "𝕄" => MT nD τ sig Unit (Elt F) ℕ (UR sig nD τ) ℕ

variable (m : (ℓ : Loc nD τ sig) → Buf (Elt F) ℓ) (ρ : Dev nD → PrngReg)

/-- Every weakly fair execution terminates with every unscoped buffer at `Vend`. -/
theorem run_all : θ_run defs (onTc (τ := τ) (main (F := F))) ⟨m, fun _ => 0, ρ⟩ (fun r => ∀ c : Dev nD, ∀ b : Ref sig .tc, b.isScoped = false →
    r.2.mem ((c.tc : Thread nD τ).loc b) = Vend m c (Proc.devRef .tc b)) :=
  run_main m ρ fun c => (body_obligation m c).loose

/-- The frame: the program runs to the end and its argument arrays are unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c main_arg0 rfl).trans (Vend_arg0 m c), (h c main_arg1 rfl).trans (Vend_arg1 m c)⟩) (run_all m ρ)

/-- The run with the result buffer named too. -/
theorem run_result : θ_run defs (onTc (τ := τ) (main (F := F))) ⟨m, fun _ => 0, ρ⟩ (fun r => ∀ c : Dev nD,
    r.2.mem ((c.tc : Thread nD τ).loc main_v22) = Vend m c (Proc.devRef .tc main_v22)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨h c main_v22 rfl, (h c main_arg0 rfl).trans (Vend_arg0 m c), (h c main_arg1 rfl).trans (Vend_arg1 m c)⟩) (run_all m ρ)

end Cert.Kernel.Hand

end
-- ==== Proof.Spec.lean ====
/-
  The quantity both programs compute, stated once over the extended reals, index by index.

  For unit rows z (8192 of them, 128 entries each): s r c is the dot product of rows r and c; the positive of row r is
  s between row r mod 4096 and its partner 4096 further; the numerator of row r is exp of the positive over one half;
  the denominator is the sum over every OTHER row c of exp (2 · s r c); the result is the mean over the rows of
  −log (numerator / denominator).
-/
import Idealize.ShloMosaic.PureOps.Ideal

noncomputable section

namespace Cert.Spec

open Idealize.ShloMosaic

/-- The float constants the two programs spell, as extended reals. -/
abbrev cHalf : EReal := Ideal.ofBits .f32 0x3F000000#32
abbrev cTwo : EReal := Ideal.ofBits .f32 0x40000000#32
abbrev cOne : EReal := Ideal.ofBits .f32 0x3F800000#32
abbrev cZero : EReal := Ideal.ofBits .f32 0x00000000#32
abbrev cN : EReal := Ideal.ofBits .f32 0x46000000#32

theorem cZero_eq : cZero = 0 := by
  simp [cZero, Ideal.ofBits, Ideal.ieee]
theorem cOne_eq : cOne = 1 := by
  simp [cOne, Ideal.ofBits, Ideal.ieee, -EReal.coe_mul]; norm_num
theorem cHalf_eq : cHalf = ((1 / 2 : ℝ) : EReal) := by
  simp [cHalf, Ideal.ofBits, Ideal.ieee, -EReal.coe_mul]; norm_num
theorem cTwo_eq : cTwo = ((2 : ℝ) : EReal) := by
  simp [cTwo, Ideal.ofBits, Ideal.ieee, -EReal.coe_mul]; norm_num

/-- Dividing by one half is doubling, on every extended real. -/
theorem div_half (x : EReal) : Ideal.div x cHalf = x * cTwo := by
  rw [cHalf_eq, cTwo_eq, Ideal.div_coe (by norm_num : (1 / 2 : ℝ) ≠ 0)]
  norm_num

/-- The dot product of rows `r` and `c`. -/
def sim (z : Fin 8192 → Fin 128 → EReal) (r c : Fin 8192) : EReal := ∑ d : Fin 128, z r d * z c d

theorem sim_comm (z : Fin 8192 → Fin 128 → EReal) (r c : Fin 8192) : sim z r c = sim z c r := by
  unfold sim; exact Finset.sum_congr rfl fun d _ => mul_comm _ _

/-- Row `i` of the first half, its partner in the second half, and the pair a row belongs to. -/
def lo (i : Fin 4096) : Fin 8192 := ⟨i.val, by omega⟩
def hi (i : Fin 4096) : Fin 8192 := ⟨i.val + 4096, by omega⟩
def pair (r : Fin 8192) : Fin 4096 := ⟨r.val % 4096, Nat.mod_lt _ (by norm_num)⟩

/-- The positive of pair `i`. -/
def pos (z : Fin 8192 → Fin 128 → EReal) (i : Fin 4096) : EReal := sim z (lo i) (hi i)

/-- The numerator of row `r`. -/
def nom (z : Fin 8192 → Fin 128 → EReal) (r : Fin 8192) : EReal := Ideal.exp (Ideal.div (pos z (pair r)) cHalf)

/-- The weight of the pair of rows `r`, `c`: nothing on the diagonal. -/
def wgt (z : Fin 8192 → Fin 128 → EReal) (r c : Fin 8192) : EReal := if r = c then 0 else Ideal.exp (sim z r c * cTwo)

/-- The denominator of row `r`. -/
def den (z : Fin 8192 → Fin 128 → EReal) (r : Fin 8192) : EReal := ∑ c : Fin 8192, wgt z r c

/-- The mean loss. -/
def loss (n d : Fin 8192 → EReal) : EReal := Ideal.div (∑ r : Fin 8192, -(Ideal.log (Ideal.div (n r) (d r)))) cN

/-- The whole quantity. -/
def total (z : Fin 8192 → Fin 128 → EReal) : EReal := loss (nom z) (den z)

end Cert.Spec

end
-- ==== Proof.Kern.DataI.lean ====
/-
  The normalised rows as the region finds them, by row and column, at the extended reals.
-/
import proofs.«106766_j60722247631651_1_alg».proof.Proof.Kern.Data
import proofs.«106766_j60722247631651_1_alg».proof.Proof.Spec
import Idealize.ShloMosaic.Lib.ValueIdx
import Idealize.ShloMosaic.PureOps.Ideal

set_option maxRecDepth 16384

noncomputable section

namespace Cert.KernelIdeal.HandI

open Idealize.ShloMosaic Idealize.ShloMosaic.TcCoe Idealize.ShloMosaic.ValueIdx
open Idealize.SL.Sem
open Cert.KernelIdeal Cert.KernelIdeal.Gen Cert.KernelIdeal.Hand

variable [Cert.KernelIdeal.Facts]

variable (m : (ℓ : Loc nD τ sig) → Buf (Elt Ideal) ℓ)

/-- Entry `d` of row `r` of the array both input windows read. -/
def zK (c : Dev nD) : Fin 8192 → Fin 128 → EReal := fun r d => (V (F := Ideal) m c main_v6 : S8192x128.Idx → EReal) (ix2 r d)

/-- The output array when the region ends, by row. -/
def denK (c : Dev nD) : Fin 8192 → EReal := fun r => (denomArr (F := Ideal) m c : S8192.Idx → EReal) (ix1 r)

end Cert.KernelIdeal.HandI

end
-- ==== Proof.Kern.Payload.lean ====
/-
  The body's three stored values read at an index, at the extended reals: the reset stores zeros; the update adds to each
  row of the running column that row's sum, over the tile's 1024 columns, of exp (2 · ⟨row, column⟩) with the entries on
  the diagonal of the whole matrix left out; the write-out lays the column out as a row.
-/
import proofs.«106766_j60722247631651_1_alg».proof.Proof.Gen.KernelIdeal.Skeleton
import proofs.«106766_j60722247631651_1_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

namespace Cert.KernelIdeal.HandI

open Idealize.ShloMosaic Idealize.ShloMosaic.TcCoe Idealize.ShloMosaic.ValueIdx
open Cert.KernelIdeal Cert.KernelIdeal.Gen

variable [Cert.KernelIdeal.Facts]

/-- One tile's contribution to row `p` of row tile `a` from column tile `b`: the masked exponential row sum. -/
def tileSum (a b : ℕ) (x0 x1 : S1024x128.Idx → EReal) (p : Fin 1024) : EReal :=
  ∑ q : Fin 1024, (if a * 1024 + p.val = b * 1024 + q.val then (0 : EReal)
    else Ideal.exp ((∑ d : Fin 128, x0 (ix2 p d) * x1 (ix2 q d)) * Cert.Spec.cTwo))

/-! ## The layout operations at an index -/

section Layout
variable {α : Type}

/-- A vector laid out as a column reads, at row `p`, the vector's entry `p`. -/
theorem castCol_apply (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column laid out as a vector reads, at entry `p`, the column's row `p`. -/
theorem castVec_apply (X : S1024x1.Idx → α) (h : S1024x1.ShapeCasts S1024) (p : Fin 1024) :
    shapeCast S1024 X h (ix1 p) = X (ix2 p (0 : Fin 1)) :=
  shapeCast_apply X h _ _ (by
    rw [Shape.rowMajor_val_two, Shape.rowMajor_val_one]
    show p.val * 1 + 0 = p.val
    rw [Nat.mul_one, Nat.add_zero])

end Layout

/-! ## The sum along a row -/

/-- The sum over axis 1 from the zero word, at row `p`: the sum of the row's 1024 entries. -/
theorem rowSum_apply (src : FVec Ideal S1024x1024 .f32) (h : S1024x1024.Reduces [1] S1024) (hφ : FKind.Formats FTy.f32)
    (hacc : (0x00000000#32 : BitVec (FTy.bits .f32)) = FKind.add.neutral .f32 hφ) (p : Fin 1024) :
    multiReduction (F := Ideal) .add [1] S1024 src 0x00000000#32 h hφ hacc (ix1 p) = ∑ q : Fin 1024, src (ix2 p q) := by
  refine (Ideal.multiReduction_add_single src 0x00000000#32 h hφ hacc (ix1 p)).trans ?_
  refine Finset.sum_congr rfl fun q _ => congrArg src ?_
  funext c
  apply Fin.ext
  match c with
  | ⟨0, _⟩ => rfl
  | ⟨1, _⟩ => rfl

/-! ## The matrix product at an index -/

theorem dotL0 (j : S1024x1024.Idx) (k : dot_S1024x128_S128x1024_S1024x1024_1_0_0_1_n_n.contr.Idx) :
    (dot_S1024x128_S128x1024_S1024x1024_1_0_0_1_n_n.lhsIdx j k 0).val = (j 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem dotL1 (j : S1024x1024.Idx) (k : dot_S1024x128_S128x1024_S1024x1024_1_0_0_1_n_n.contr.Idx) :
    (dot_S1024x128_S128x1024_S1024x1024_1_0_0_1_n_n.lhsIdx j k 1).val = (k ⟨0, by decide⟩).val :=
  dot_S1024x128_S128x1024_S1024x1024_1_0_0_1_n_n.lhsIdx_val_of_single rfl j k
theorem dotR0 (j : S1024x1024.Idx) (k : dot_S1024x128_S128x1024_S1024x1024_1_0_0_1_n_n.contr.Idx) :
    (dot_S1024x128_S128x1024_S1024x1024_1_0_0_1_n_n.rhsIdx j k 0).val = (k ⟨0, by decide⟩).val :=
  dot_S1024x128_S128x1024_S1024x1024_1_0_0_1_n_n.rhsIdx_val_of_single rfl j k
theorem dotR1 (j : S1024x1024.Idx) (k : dot_S1024x128_S128x1024_S1024x1024_1_0_0_1_n_n.contr.Idx) :
    (dot_S1024x128_S128x1024_S1024x1024_1_0_0_1_n_n.rhsIdx j k 1).val = (j 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a 1024 × 128 matrix with a 128 × 1024 one into zeros, at `(p, q)`: the sum over the 128 contracted
    entries of row `p` of the first times column `q` of the second. -/
theorem dot_apply (x : FVec Ideal S1024x128 .bf16) (y : FVec Ideal S128x1024 .bf16) (p q : Fin 1024) :
    matmul dot_S1024x128_S128x1024_S1024x1024_1_0_0_1_n_n none x y (constant (F := Ideal) S1024x1024 .f32 0x00000000#32) (ix2 p q)
      = ∑ d : Fin 128, x (ix2 p d) * y (ix2 d q) := by
  refine (Ideal.matmul_constant_zero_apply dot_S1024x128_S128x1024_S1024x1024_1_0_0_1_n_n none x y (ix2 p q)).trans ?_
  rw [← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact dotL0 _ _
    | ⟨1, _⟩ => exact (dotL1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (dotR0 _ _).trans hk
    | ⟨1, _⟩ => exact dotR1 _ _)
  rw [el, er]

/-! ## The mask -/

/-- Below `2 ^ 32` the 32-bit words of two tile offsets plus in-tile positions are equal exactly when the numbers are. -/
theorem word_eq_iff (a b : ℕ) (ha : a < 8) (hb : b < 8) (p q : Fin 1024) :
    BitVec.ofNat 32 a * 1024#32 + BitVec.ofNat 32 p.val = BitVec.ofNat 32 b * 1024#32 + BitVec.ofNat 32 q.val
      ↔ a * 1024 + p.val = b * 1024 + q.val := by
  have e : ∀ (c : ℕ) (r : Fin 1024),
      BitVec.ofNat 32 c * 1024#32 + BitVec.ofNat 32 r.val = BitVec.ofNat 32 (c * 1024 + r.val) := by
    intro c r
    rw [BitVec.ofNat_add, BitVec.ofNat_mul]
  rw [e, e]
  constructor
  · intro h
    have h' := congrArg BitVec.toNat h
    rw [BitVec.toNat_ofNat, BitVec.toNat_ofNat] at h'
    have hp := p.isLt
    have hq := q.isLt
    rw [Nat.mod_eq_of_lt (by omega), Nat.mod_eq_of_lt (by omega)] at h'
    exact h'
  · intro h
    rw [h]

/-- The comparison of global row number with global column number, at `(p, q)` of tile `(a, b)`. -/
theorem mask_apply (a b : ℕ) (ha : a < 8) (hb : b < 8) (h0 : S1024x1024.Iotas .tc 32 [0]) (h1 : S1024x1024.Iotas .tc 32 [1])
    (p q : Fin 1024) :
    cmpi .eq (addi (broadcast S1024x1024 (Scalar.muli (BitVec.ofNat 32 a) 1024#32)) (iota .tc S1024x1024 32 [0] h0))
        (addi (broadcast S1024x1024 (Scalar.muli (BitVec.ofNat 32 b) 1024#32)) (iota .tc S1024x1024 32 [1] h1)) (ix2 p q) = 1#1
      ↔ a * 1024 + p.val = b * 1024 + q.val := by
  show IntOp.cmpi .eq (IntOp.addi (Scalar.muli (BitVec.ofNat 32 a) 1024#32) (iota .tc S1024x1024 32 [0] h0 (ix2 p q)))
      (IntOp.addi (Scalar.muli (BitVec.ofNat 32 b) 1024#32) (iota .tc S1024x1024 32 [1] h1 (ix2 p q))) = 1#1 ↔ _
  rw [iota_single_apply, iota_single_apply, IntOp.cmpi_eq]
  exact word_eq_iff a b ha hb p q

/-- The select under that mask, at `(p, q)`. -/
theorem masked_apply (a b : ℕ) (ha : a < 8) (hb : b < 8) (h0 : S1024x1024.Iotas .tc 32 [0]) (h1 : S1024x1024.Iotas .tc 32 [1])
    (z e : S1024x1024.Idx → EReal) (p q : Fin 1024) :
    select (cmpi .eq (addi (broadcast S1024x1024 (Scalar.muli (BitVec.ofNat 32 a) 1024#32)) (iota .tc S1024x1024 32 [0] h0))
        (addi (broadcast S1024x1024 (Scalar.muli (BitVec.ofNat 32 b) 1024#32)) (iota .tc S1024x1024 32 [1] h1))) z e (ix2 p q)
      = if a * 1024 + p.val = b * 1024 + q.val then z (ix2 p q) else e (ix2 p q) := by
  rw [select_apply]
  by_cases h : a * 1024 + p.val = b * 1024 + q.val
  · rw [if_pos h, (mask_apply a b ha hb h0 h1 p q).mpr h, select_one]
  · rw [if_neg h, eq_zero_of_ne_one (mt (mask_apply a b ha hb h0 h1 p q).mp h), select_zero]

/-! ## The three stored values -/

theorem pay1_apply (y : S1024x1.Idx) : (k0_pay1 (F := Ideal) : S1024x1.Idx → EReal) y = 0 := by
  unfold k0_pay1
  rw [shapeCast_self]
  exact Ideal.ofBits_zero_f32

theorem pay3_apply (X : S1024x1.Idx → EReal) (p : Fin 1024) :
    (k0_pay3 (F := Ideal) X : S1024.Idx → EReal) (ix1 p) = X (ix2 p (0 : Fin 1)) := by
  unfold k0_pay3
  exact castVec_apply X _ p

theorem pay2_apply (i : grid0.Coords) (x0 x1 : S1024x128.Idx → EReal) (X : S1024x1.Idx → EReal) (p : Fin 1024) :
    (k0_pay2 (F := Ideal) i x0 x1 X : S1024x1.Idx → EReal) (ix2 p (0 : Fin 1))
      = X (ix2 p (0 : Fin 1)) + tileSum (i 0).val (i 1).val x0 x1 p := by
  have ha : (i 0).val < 8 := (i 0).isLt
  have hb : (i 1).val < 8 := (i 1).isLt
  unfold k0_pay2
  dsimp only
  simp only [shapeCast_self]
  rw [addf_apply]
  refine congrArg (X (ix2 p (0 : Fin 1)) + ·) ?_
  refine (castCol_apply _ _ p 0).trans ?_
  refine (rowSum_apply _ _ _ _ p).trans ?_
  unfold tileSum
  refine Finset.sum_congr rfl fun q _ => ?_
  refine (masked_apply _ _ ha hb _ _ _ _ p q).trans ?_
  by_cases h : (i 0).val * 1024 + p.val = (i 1).val * 1024 + q.val
  · rw [if_pos h, if_pos h]
    exact Ideal.ofBits_zero_f32
  · rw [if_neg h, if_neg h]
    show Ideal.exp (_ * Cert.Spec.cTwo) = Ideal.exp (_ * Cert.Spec.cTwo)
    refine congrArg (fun t => Ideal.exp (t * Cert.Spec.cTwo)) ?_
    refine (dot_apply _ _ p q).trans ?_
    refine Finset.sum_congr rfl fun d _ => ?_
    rw [transpose_ix2_apply]

end Cert.KernelIdeal.HandI

end
-- ==== Proof.Kern.ValueDen.lean ====
/-
  What the output array holds when the region ends: row r holds the sum over every other row c of exp (2 · ⟨z r, z c⟩),
  the eight column tiles' masked row sums added up in the scratch column and written out at the last of them.
-/
import proofs.«106766_j60722247631651_1_alg».proof.Proof.Kern.DataI
import proofs.«106766_j60722247631651_1_alg».proof.Proof.Kern.Payload
import Idealize.ShloMosaic.Lib.Pipeline.Value
import Idealize.ShloMosaic.PureOps.Ideal.Laws

set_option maxRecDepth 16384

noncomputable section

namespace Cert.KernelIdeal.HandI

open Idealize.ShloMosaic Idealize.ShloMosaic.TcCoe Idealize.ShloMosaic.ValueIdx
open Idealize.SL.Sem
open Cert.KernelIdeal Cert.KernelIdeal.Gen Cert.KernelIdeal.Hand

variable [Cert.KernelIdeal.Facts]

variable (m : (ℓ : Loc nD τ sig) → Buf (Elt Ideal) ℓ)

namespace Den

/-! ## Rows, tiles and the grid -/

/-- Row `p` of row tile `a` (read modulo the row count, so that it is a row for every natural `a`). -/
def rowIx (a : ℕ) (p : Fin 1024) : Fin 8192 := ⟨(1024 * a + p.val) % 8192, Nat.mod_lt _ (by norm_num)⟩

theorem rowIx_val (a : ℕ) (ha : a < 8) (p : Fin 1024) : (rowIx a p).val = 1024 * a + p.val := by
  have hp := p.isLt
  show (1024 * a + p.val) % 8192 = _
  omega

/-- Point `t` of the 8 × 8 grid has coordinates (t / 8, t % 8). -/
theorem coords_fact : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The block indices at point `t`: window 0 reads row tile t / 8, window 1 row tile t % 8, the output is row tile t / 8. -/
theorem idx_fact : ∀ t : Fin cfg0.N, win0_0.index t (0 : Fin 2) = t.val / 8 ∧ win0_0.index t (1 : Fin 2) = 0
    ∧ win0_1.index t (0 : Fin 2) = t.val % 8 ∧ win0_1.index t (1 : Fin 2) = 0 ∧ win0_2.index t (0 : Fin 1) = t.val / 8 :=
  (by decide +kernel : ∀ t : Fin grid0.N, win0_0.index t (0 : Fin 2) = t.val / 8 ∧ win0_0.index t (1 : Fin 2) = 0
    ∧ win0_1.index t (0 : Fin 2) = t.val % 8 ∧ win0_1.index t (1 : Fin 2) = 0 ∧ win0_2.index t (0 : Fin 1) = t.val / 8)

/-- The two input blocks at point `t`, by their literal types. -/
abbrev xblk0 (c : Dev nD) (t : Fin cfg0.N) : S1024x128.Idx → EReal := iblk (F := Ideal) m c 0 t
abbrev xblk1 (c : Dev nD) (t : Fin cfg0.N) : S1024x128.Idx → EReal := iblk (F := Ideal) m c 1 t

/-- Window 0's block at point `t` is row tile t / 8 of the array. -/
theorem xblk0_apply (c : Dev nD) (t : Fin cfg0.N) (p : Fin 1024) (d : Fin 128) :
    xblk0 m c t (ix2 p d) = zK m c (rowIx (t.val / 8) p) d := by
  have hN : cfg0.N = 64 := N_0
  have ht := t.isLt
  have hp := p.isLt
  obtain ⟨e0, e1, -, -, -⟩ := idx_fact t
  show V (F := Ideal) m c main_v6 (((cfg0.win 0).blk t).view.emb (ix2 p d)) = V (F := Ideal) m c main_v6 (ix2 (rowIx (t.val / 8) p) d)
  congr 1
  funext a
  apply Fin.ext
  match a with
  | ⟨0, _⟩ =>
    show win0_0.index t (0 : Fin 2) * 1024 + 1 * p.val = (1024 * (t.val / 8) + p.val) % 8192
    rw [e0]; omega
  | ⟨1, _⟩ =>
    show win0_0.index t (1 : Fin 2) * 128 + 1 * d.val = d.val
    rw [e1]; omega

/-- Window 1's block at point `t` is row tile t % 8 of the array. -/
theorem xblk1_apply (c : Dev nD) (t : Fin cfg0.N) (q : Fin 1024) (d : Fin 128) :
    xblk1 m c t (ix2 q d) = zK m c (rowIx (t.val % 8) q) d := by
  have hN : cfg0.N = 64 := N_0
  have ht := t.isLt
  have hq := q.isLt
  obtain ⟨-, -, e0, e1, -⟩ := idx_fact t
  show V (F := Ideal) m c main_v6 (((cfg0.win 1).blk t).view.emb (ix2 q d)) = V (F := Ideal) m c main_v6 (ix2 (rowIx (t.val % 8) q) d)
  congr 1
  funext a
  apply Fin.ext
  match a with
  | ⟨0, _⟩ =>
    show win0_1.index t (0 : Fin 2) * 1024 + 1 * q.val = (1024 * (t.val % 8) + q.val) % 8192
    rw [e0]; omega
  | ⟨1, _⟩ =>
    show win0_1.index t (1 : Fin 2) * 128 + 1 * d.val = d.val
    rw [e1]; omega

/-! ## One column tile's contribution to a row, and the running column -/

/-- What column tile `s` contributes to row `r`'s denominator. -/
def part (z : Fin 8192 → Fin 128 → EReal) (r : Fin 8192) (s : ℕ) : EReal :=
  ∑ q : Fin 1024, Cert.Spec.wgt z r (rowIx s q)

/-- A tile's masked row sum, over blocks that are row tiles `a` and `s` of `z`, is tile `s`'s contribution to row
    `p` of tile `a`: the diagonal test on positions is equality of rows. -/
theorem tileSum_eq (z : Fin 8192 → Fin 128 → EReal) (a s a' s' : ℕ) (ea : a' = a) (es : s' = s) (ha : a < 8) (hs : s < 8)
    (x0 x1 : S1024x128.Idx → EReal)
    (h0 : ∀ (p : Fin 1024) (d : Fin 128), x0 (ix2 p d) = z (rowIx a p) d)
    (h1 : ∀ (q : Fin 1024) (d : Fin 128), x1 (ix2 q d) = z (rowIx s q) d) (p : Fin 1024) :
    tileSum a' s' x0 x1 p = part z (rowIx a p) s := by
  subst ea es
  unfold tileSum part
  refine Finset.sum_congr rfl fun q _ => ?_
  unfold Cert.Spec.wgt Cert.Spec.sim
  have hc : (a' * 1024 + p.val = s' * 1024 + q.val) ↔ rowIx a' p = rowIx s' q := by
    rw [Fin.ext_iff, rowIx_val a' ha p, rowIx_val s' hs q]; omega
  refine if_congr hc rfl ?_
  refine congrArg Ideal.exp (congrArg (· * Cert.Spec.cTwo) ?_)
  exact Finset.sum_congr rfl fun d _ => by rw [h0, h1]

/-- After the body at point `n` the running column holds, for each row of row tile n / 8, the contributions of column
    tiles 0 … n % 8: by induction on the point, the column reset where n % 8 = 0 and added to elsewhere. -/
theorem accAt_apply (c : Dev nD) (n : ℕ) : ∀ (hn : n < cfg0.N) (p : Fin 1024),
    (accAt (F := Ideal) m c n hn : S1024x1.Idx → EReal) (ix2 p (0 : Fin 1))
      = ∑ s ∈ Finset.range (n % 8 + 1), part (zK m c) (rowIx (n / 8) p) s := by
  induction n using Nat.strong_induction_on with
  | _ n ih =>
    intro hn p
    have hN : cfg0.N = 64 := N_0
    have key : tileSum (grid0.coords ⟨n, hn⟩ 0).val (grid0.coords ⟨n, hn⟩ 1).val (xblk0 m c ⟨n, hn⟩) (xblk1 m c ⟨n, hn⟩) p
        = part (zK m c) (rowIx (n / 8) p) (n % 8) :=
      tileSum_eq (zK m c) (n / 8) (n % 8) (grid0.coords ⟨n, hn⟩ 0).val (grid0.coords ⟨n, hn⟩ 1).val
        (coords_fact ⟨n, hn⟩).1 (coords_fact ⟨n, hn⟩).2 (by omega) (by omega) (xblk0 m c ⟨n, hn⟩) (xblk1 m c ⟨n, hn⟩)
        (fun p d => xblk0_apply m c ⟨n, hn⟩ p d) (fun q d => xblk1_apply m c ⟨n, hn⟩ q d) p
    by_cases h0 : n % 8 = 0
    · have e := accAt_reset (F := Ideal) m c ⟨n, hn⟩ h0
      refine (congrFun e (ix2 p (0 : Fin 1))).trans ?_
      refine (pay2_apply (grid0.coords ⟨n, hn⟩) (xblk0 m c ⟨n, hn⟩) (xblk1 m c ⟨n, hn⟩) (k0_pay1 (F := Ideal)) p).trans ?_
      rw [pay1_apply, zero_add, key, h0, Finset.sum_range_one]
    · have hlt : n - 1 < cfg0.N := by omega
      have e := accAt_step (F := Ideal) m c ⟨n, hn⟩ h0
      refine (congrFun e (ix2 p (0 : Fin 1))).trans ?_
      refine (pay2_apply (grid0.coords ⟨n, hn⟩) (xblk0 m c ⟨n, hn⟩) (xblk1 m c ⟨n, hn⟩) (accAt (F := Ideal) m c (n - 1) hlt) p).trans ?_
      rw [ih (n - 1) (by omega) hlt p, key]
      have d1 : (n - 1) / 8 = n / 8 := by omega
      have d2 : (n - 1) % 8 + 1 = n % 8 := by omega
      rw [d1, d2, Finset.sum_range_succ]

/-! ## The eight tiles make up the rows -/

/-- A row of the array is a tile and a row within it. -/
def tileEquiv : Fin 8 × Fin 1024 ≃ Fin 8192 where
  toFun x := rowIx x.1.val x.2
  invFun r := (⟨r.val / 1024, by have := r.isLt; omega⟩, ⟨r.val % 1024, Nat.mod_lt _ (by norm_num)⟩)
  left_inv x := by
    obtain ⟨s, q⟩ := x
    have hs := s.isLt
    have hq := q.isLt
    have hv : (rowIx s.val q).val = 1024 * s.val + q.val := rowIx_val s.val s.isLt q
    refine Prod.ext (Fin.ext ?_) (Fin.ext ?_)
    · show (rowIx s.val q).val / 1024 = s.val
      rw [hv]; omega
    · show (rowIx s.val q).val % 1024 = q.val
      rw [hv]; omega
  right_inv r := by
    have hr := r.isLt
    apply Fin.ext
    show (1024 * (r.val / 1024) + r.val % 1024) % 8192 = r.val
    omega

/-- The eight tiles' contributions to a row add up to its denominator. -/
theorem sum_parts (z : Fin 8192 → Fin 128 → EReal) (r : Fin 8192) :
    ∑ s ∈ Finset.range 8, part z r s = Cert.Spec.den z r := by
  unfold Cert.Spec.den
  rw [Finset.sum_range]
  unfold part
  refine (Fintype.sum_prod_type' (fun (s : Fin 8) (q : Fin 1024) => Cert.Spec.wgt z r (rowIx s.val q))).symm.trans ?_
  exact Fintype.sum_equiv tileEquiv _ _ fun x => rfl

/-! ## From the write-backs to the array -/

/-- The array the write-backs leave: each row at its denominator. -/
abbrev denArr (c : Dev nD) : S8192.Idx → EReal := fun i => Cert.Spec.den (zK m c) ⟨(i 0).val, (i 0).isLt⟩

/-- A point that writes back is the last of a row tile's eight; what it writes, the running column laid out as a row, is
    that row tile of the denominators. -/
theorem flushed_eq (c : Dev nD) (t : Fin cfg0.N) (hf : (cfg0.win 2).flush t = true) :
    (dats (F := Ideal) m 0 c).flushed 2 t = ((cfg0.win 2).blk t).view.read (Elt Ideal) (denArr m c) := by
  have hN : cfg0.N = 64 := N_0
  have ht := t.isLt
  have h7 : t.val % 8 = 7 := (flush0_2 t).mp hf
  obtain ⟨-, -, -, -, e2⟩ := idx_fact t
  show (cfg0.win 2).cut (grid0.coords t) ((dats (F := Ideal) m 0 c).after 2 t) = _
  rw [after0_2]
  refine funext fun (y : S1024.Idx) => ?_
  obtain ⟨p, rfl⟩ : ∃ p : Fin 1024, y = ix1 p := ⟨y 0, eq_ix1 y⟩
  have hp := p.isLt
  show (k0_pay3 (F := Ideal) (accAt (F := Ideal) m c t.val t.isLt) : S1024.Idx → EReal) (ix1 p)
    = denArr m c (((cfg0.win 2).blk t).view.emb (ix1 p))
  have e := accAt_apply m c t.val t.isLt p
  rw [h7] at e
  refine (pay3_apply (accAt (F := Ideal) m c t.val t.isLt) p).trans (e.trans ?_)
  refine (sum_parts (zK m c) (rowIx (t.val / 8) p)).trans ?_
  refine congrArg (Cert.Spec.den (zK m c)) (Fin.ext ?_)
  show (rowIx (t.val / 8) p).val = win0_2.index t (0 : Fin 1) * 1024 + 1 * p.val
  rw [e2, rowIx_val (t.val / 8) (by omega) p]; omega

/-- Every row lies in the block of the last point of its row tile. -/
theorem cover (i : S8192.Idx) :
    ∃ t : Fin cfg0.N, (cfg0.win 2).flush t = true ∧ i ∈ ((cfg0.win 2).blk t).view.set := by
  have hN : cfg0.N = 64 := N_0
  have hi : (i 0).val < 8192 := (i 0).isLt
  obtain ⟨t, ht⟩ : ∃ t : Fin cfg0.N, t.val = 8 * ((i 0).val / 1024) + 7 := ⟨⟨8 * ((i 0).val / 1024) + 7, by omega⟩, rfl⟩
  obtain ⟨-, -, -, -, e2⟩ := idx_fact t
  refine ⟨t, (flush0_2 t).mpr (by omega), ?_⟩
  show i ∈ ((View.whole main_v7).slice (win0_2.rect t)).set
  rw [View.set_slice_whole, Rect.mem_set_unit]
  intro a
  match a with
  | ⟨0, _⟩ =>
    show win0_2.index t (0 : Fin 1) * 1024 ≤ (i 0).val ∧ (i 0).val < win0_2.index t (0 : Fin 1) * 1024 + 1024
    rw [e2]; omega

/-- So the output array ends holding every row's denominator. -/
theorem denomArr_eq (c : Dev nD) : denomArr (F := Ideal) m c = denArr m c :=
  (dats (F := Ideal) m 0 c).arrAt_eq_of_cover 2 (denArr m c) (flushed_eq m c) cover

end Den

/-- Row `r` of the output array is the denominator of row `r`. -/
theorem denK_eq (c : Dev nD) (r : Fin 8192) : denK m c r = Cert.Spec.den (zK m c) r :=
  congrFun (Den.denomArr_eq m c) (ix1 r)

end Cert.KernelIdeal.HandI

end
-- ==== Proof.Kern.ValueHost.lean ====
/-
  The host operations around the region at the extended reals: before it the rows are concatenated and divided by their
  clamped norms; after it the positives are the row-wise dot products of the two halves, and the result is the mean of
  −log (numerator / denominator).
-/
import proofs.«106766_j60722247631651_1_alg».proof.Proof.Kern.DataI
import Idealize.ShloMosaic.Lib.Pipeline.Value
import Idealize.ShloMosaic.Lib.ValueLayout
import Idealize.ShloMosaic.Lib.StableHlo.Run
import Idealize.ShloMosaic.Lib.IdealHost
import Idealize.ShloMosaic.PureOps.Ideal.Laws

set_option maxRecDepth 16384

noncomputable section

namespace Cert.KernelIdeal.HandI

open Idealize.ShloMosaic Idealize.ShloMosaic.TcCoe Idealize.ShloMosaic.ValueIdx
open Idealize.SL.Sem
open Cert.KernelIdeal Cert.KernelIdeal.Gen Cert.KernelIdeal.Hand

variable [Cert.KernelIdeal.Facts]

variable (m : (ℓ : Loc nD τ sig) → Buf (Elt Ideal) ℓ)

/-- The host operations before the region, as one function of the two arguments: the concatenation divided by the row
    norms clamped from below. -/
def zChainK (a0 a1 : S4096x128.Idx → EReal) : S8192x128.Idx → EReal :=
  truncf (F := Ideal) .bf16
    (Host.divf (F := Ideal) (φ := .f32)
      (concatenate S8192x128 0 [⟨S4096x128, a0⟩, ⟨S4096x128, a1⟩] concatenates_S4096x128_S4096x128_S8192x128_d0)
      (broadcastInDim S8192x128 ![0, 1] bcast_S8192x1_S8192x128_0_1
        (maximumf (F := Ideal) (φ := .f32)
          (Host.sqrt (F := Ideal) (φ := .f32)
            (broadcastInDim S8192x1 ![0] bcast_S8192_S8192x1_0
              (Host.reduceAdd (F := Ideal) (φ := .f32)
                (mulf (F := Ideal) (φ := .f32)
                  (concatenate S8192x128 0 [⟨S4096x128, a0⟩, ⟨S4096x128, a1⟩] concatenates_S4096x128_S4096x128_S8192x128_d0)
                  (concatenate S8192x128 0 [⟨S4096x128, a0⟩, ⟨S4096x128, a1⟩] concatenates_S4096x128_S4096x128_S8192x128_d0))
                (constant (F := Ideal) S_ .f32 0x00000000#32) reducesTo_S8192x128_S8192_d1 h_S_)))
          (broadcastInDim S8192x1 ![] bcast_S_S8192x1 (constant (F := Ideal) S_ .f32 0x2B8CBCCC#32)))))
    bitsLt_bf16_f32

/-- The array both windows read is that function of the arguments as launched. -/
theorem V_v6 (c : Dev nD) :
    (V (F := Ideal) m c main_v6 : S8192x128.Idx → EReal)
      = zChainK (m ((c.tc : Thread nD τ).loc main_arg0)) (m ((c.tc : Thread nD τ).loc main_arg1)) := by
  dsimp only [V, Vpre, preOps, V₀]
  simp only [hostOps0, hostOps0_1, hostOps0_2, List.flatten_cons, List.flatten_nil, List.append_nil, List.cons_append,
    List.nil_append]
  after_results
  rfl

/-! ## The host operations after the region, as one function of the rows and of the output array -/

/-- The numerators, one per pair of rows: exp of the dot product of row `i` of the first half with row `i` of the second
    half, over one half. -/
def numK (z : S8192x128.Idx → EReal) : S4096.Idx → EReal :=
  Host.exp (F := Ideal) (φ := .f32)
    (Host.divf (F := Ideal) (φ := .f32)
      (Host.reduceAdd (F := Ideal) (φ := .f32)
        (mulf (F := Ideal) (φ := .f32)
          (extf (F := Ideal) (φ := .bf16) .f32
            (extractStridedSlice S4096x128 ![0, 0] z slices_S8192x128_S4096x128_0_0) bitsLt_bf16_f32)
          (extf (F := Ideal) (φ := .bf16) .f32
            (extractStridedSlice S4096x128 ![4096, 0] z slices_S8192x128_S4096x128_4096_0) bitsLt_bf16_f32))
        (constant (F := Ideal) S_ .f32 0x00000000#32) reducesTo_S4096x128_S4096_d1 h_S_)
      (broadcastInDim S4096 ![] bcast_S_S4096 (constant (F := Ideal) S_ .f32 0x3F000000#32)))

/-- The result: the numerators laid out twice, divided by the output array, minus the logarithm, summed, over the number
    of rows. -/
def tailK (z : S8192x128.Idx → EReal) (den : S8192.Idx → EReal) : S_.Idx → EReal :=
  Host.divf (F := Ideal) (φ := .f32)
    (Host.reduceAdd (F := Ideal) (φ := .f32)
      (Host.negf (F := Ideal) (φ := .f32)
        (Host.log (F := Ideal) (φ := .f32)
          (Host.divf (F := Ideal) (φ := .f32)
            (concatenate S8192 0 [⟨S4096, numK z⟩, ⟨S4096, numK z⟩] concatenates_S4096_S4096_S8192_d0) den)))
      (constant (F := Ideal) S_ .f32 0x00000000#32) reducesTo_S8192_S_d0 h_S_)
    (constant (F := Ideal) S_ .f32 0x46000000#32)

/-- The result buffer at the return is that function of the array the windows read and of the output array as the
    region left it: the region writes the output array only. -/
theorem Vend_tail (c : Dev nD) :
    (Vend (F := Ideal) m c (Proc.devRef .tc main_v22) : S_.Idx → EReal)
      = tailK (V (F := Ideal) m c main_v6) (denomArr (F := Ideal) m c) := by
  have e6 : Vexit (F := Ideal) m c (Proc.devRef .tc main_v6) = V (F := Ideal) m c main_v6 := by
    unfold Vexit
    exact Function.update_of_ne (StableHlo.devRef_ne_of_ne (by decide)) _ _
  have e7 : Vexit (F := Ideal) m c (Proc.devRef .tc main_v7) = denomArr (F := Ideal) m c := by
    unfold Vexit
    exact Function.update_self _ _ _
  unfold Vend
  simp only [hostOps1]
  after_results
  rw [e6, e7]
  rfl

/-! ## The sums read as sums over coordinates -/

/-- The host's sum along the second axis of a matrix at row `r`: the initial value plus the sum over the row. -/
theorem hostRowSum {n0 n1 : Nat} (x : (⟨2, ![n0, n1]⟩ : Shape).Idx → EReal) (init : EReal)
    (h' : (⟨2, ![n0, n1]⟩ : Shape).ReducesTo [1] ⟨1, ![n0]⟩) (r : Fin n0) :
    Ideal.hostReduceAdd h' x init (ix1 r) = init + ∑ d : Fin n1, x (ix2 r d) := by
  have h : (⟨2, ![n0, n1]⟩ : Shape).Reduces [1] ⟨1, ![n0]⟩ := ⟨h'.1, Nat.one_pos, h'.2⟩
  rw [Ideal.hostReduceAdd_single h' h]
  refine congrArg (init + ·) (Finset.sum_congr rfl fun d _ => congrArg x (funext fun a => ?_))
  match a with
  | ⟨0, _⟩ => exact Fin.ext rfl
  | ⟨1, _⟩ => exact Fin.ext rfl

/-- A sum over the indices of a vector is the sum over its coordinate. -/
theorem sum_idx1 {n : Nat} (f : (⟨1, ![n]⟩ : Shape).Idx → EReal) : ∑ i, f i = ∑ r : Fin n, f (ix1 r) :=
  Fintype.sum_equiv ⟨fun i => i 0, ix1, fun i => (eq_ix1 i).symm, fun _ => rfl⟩ f (fun r => f (ix1 r))
    (fun i => congrArg f (eq_ix1 i))

/-- The host's sum of a vector into a scalar: the initial value plus the sum over the coordinate. -/
theorem hostTotalSum {n : Nat} (x : (⟨1, ![n]⟩ : Shape).Idx → EReal) (init : EReal)
    (h' : (⟨1, ![n]⟩ : Shape).ReducesTo [0] ⟨0, ![]⟩) (j : (⟨0, ![]⟩ : Shape).Idx) :
    Ideal.hostReduceAdd h' x init j = init + ∑ r : Fin n, x (ix1 r) := by
  rw [Ideal.hostReduceAdd_total h' (fun b => b.elim0), sum_idx1]

/-! ## The numerators and the result at an index -/

/-- Numerator `i` is exp of the positive of pair `i` over one half. -/
theorem numK_apply (z : S8192x128.Idx → EReal) (i : Fin 4096) :
    numK z (ix1 i) = Ideal.exp (Ideal.div (Cert.Spec.pos (fun r d => z (ix2 r d)) i) Cert.Spec.cHalf) := by
  show Ideal.exp (Ideal.div (Ideal.hostReduceAdd reducesTo_S4096x128_S4096_d1
      (fun j : S4096x128.Idx => extractStridedSlice S4096x128 ![0, 0] z slices_S8192x128_S4096x128_0_0 j
        * extractStridedSlice S4096x128 ![4096, 0] z slices_S8192x128_S4096x128_4096_0 j) Cert.Spec.cZero (ix1 i))
      Cert.Spec.cHalf) = _
  rw [hostRowSum, Cert.Spec.cZero_eq, zero_add]
  unfold Cert.Spec.pos Cert.Spec.sim
  refine congrArg (fun s => Ideal.exp (Ideal.div s Cert.Spec.cHalf)) (Finset.sum_congr rfl fun d _ => ?_)
  rw [slice2_axis0_apply 0 z _ i d (Cert.Spec.lo i) (Nat.zero_add _).symm,
    slice2_axis0_apply 4096 z _ i d (Cert.Spec.hi i) (Nat.add_comm _ _)]

/-- The numerators laid out twice: entry `r` is the numerator of the pair row `r` belongs to. -/
theorem cat_numK_apply (z : S8192x128.Idx → EReal) (r : Fin 8192) :
    concatenate S8192 0 [⟨S4096, numK z⟩, ⟨S4096, numK z⟩] concatenates_S4096_S4096_S8192_d0 (ix1 r)
      = Cert.Spec.nom (fun r d => z (ix2 r d)) r := by
  unfold Cert.Spec.nom
  rw [← numK_apply]
  by_cases hr : r.val < 4096
  · refine concatenate_pair_apply_left (t := S8192) (s₁ := S4096) (s₂ := S4096) 0 _ _ _ (ix1 r) rfl (ix1 (Cert.Spec.pair r)) fun b => ?_
    match b with
    | ⟨0, _⟩ => exact Nat.mod_eq_of_lt hr
  · refine concatenate_pair_apply_right (t := S8192) (s₁ := S4096) (s₂ := S4096) 0 _ _ _ (ix1 r) rfl rfl
      (ix1 (Cert.Spec.pair r)) (fun b hb => ?_) ?_
    · match b with
      | ⟨0, _⟩ => exact absurd rfl hb
    · show r.val % 4096 + 4096 = r.val
      have := r.isLt
      omega

/-- The result is the mean loss of the numerators over the output array. -/
theorem tailK_eq (z : S8192x128.Idx → EReal) (den : S8192.Idx → EReal) :
    tailK z den = fun _ => Cert.Spec.loss (Cert.Spec.nom (fun r d => z (ix2 r d))) (fun r => den (ix1 r)) := by
  funext j
  show Ideal.div (Ideal.hostReduceAdd reducesTo_S8192_S_d0
      (fun i : S8192.Idx => -(Ideal.log (Ideal.div
        (concatenate S8192 0 [⟨S4096, numK z⟩, ⟨S4096, numK z⟩] concatenates_S4096_S4096_S8192_d0 i) (den i))))
      Cert.Spec.cZero j) Cert.Spec.cN = _
  rw [hostTotalSum, Cert.Spec.cZero_eq, zero_add]
  unfold Cert.Spec.loss
  refine congrArg (fun s => Ideal.div s Cert.Spec.cN) (Finset.sum_congr rfl fun r _ => ?_)
  rw [cat_numK_apply]

/-- The result buffer at the return is the mean loss of the numerators of the rows as the region found them over the
    output array as the region left it. -/
theorem Vend_result (c : Dev nD) :
    (Vend (F := Ideal) m c (Proc.devRef .tc main_v22) : S_.Idx → EReal)
      = fun _ => Cert.Spec.loss (Cert.Spec.nom (zK m c)) (denK m c) :=
  (Vend_tail m c).trans (tailK_eq _ _)

end Cert.KernelIdeal.HandI

end
-- ==== Proof.Ref.RefValue.lean ====
/-
  The reference at the extended reals, index by index: its rows are the concatenation over the clamped norms; the two
  gathers read the Gram matrix at (i, i + 4096) and (i + 4096, i); the mask is one minus the identity; so its result is
  the mean loss of the specification.
-/
import proofs.«106766_j60722247631651_1_alg».proof.Proof.Ref.ReadP
import proofs.«106766_j60722247631651_1_alg».proof.Proof.Spec
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.Lib.StableHlo.Predicate
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP

variable [Cert.ReferenceIdeal.Facts]

/-- Entry `d` of row `r` of the reference's normalised rows. -/
def zR (a0 a1 : S4096x128.Idx → EReal) : Fin 8192 → Fin 128 → EReal :=
  fun r d => (val_main_v5 (F := Ideal) a0 a1 : S8192x128.Idx → EReal) (ix2 r d)

/-! ## Words: small non-negative 32-bit integers -/

/-- A natural number below 2³¹, written as a 32-bit word and read back signed, is itself. -/
theorem toInt_toNat_ofNat (n : Nat) (hn : n < 2 ^ 31) : (BitVec.ofNat 32 n).toInt.toNat = n := by
  have h1 : (BitVec.ofNat 32 n).toNat = n := by rw [BitVec.toNat_ofNat]; exact Nat.mod_eq_of_lt (by omega)
  rw [BitVec.toInt_eq_toNat_cond, h1, if_pos (by omega)]
  exact Int.toNat_natCast n

/-- Such a word is not negative: the signed comparison with zero fails. -/
theorem slt_zero_false (n : Nat) (hn : n < 2 ^ 31) : IntOp.cmpi .slt (BitVec.ofNat 32 n) 0#32 = 0#1 := by
  refine eq_zero_of_ne_one fun h => ?_
  have h1 : (BitVec.ofNat 32 n).toNat = n := by rw [BitVec.toNat_ofNat]; exact Nat.mod_eq_of_lt (by omega)
  have := (StableHlo.Predicate.slt_iff_toNat (a := BitVec.ofNat 32 n) (b := 0#32) (by omega) (by decide)).1 h
  simp at this

/-- The wrap-around `select (x < 0) (x + 8192) x` leaves a non-negative word alone. -/
theorem wrap_id (n : Nat) (hn : n < 2 ^ 31) (y : BitVec 32) :
    Scalar.select (IntOp.cmpi .slt (BitVec.ofNat 32 n) 0#32) y (BitVec.ofNat 32 n) = BitVec.ofNat 32 n := by
  rw [slt_zero_false n hn, select_zero]

/-- Adding two words that are written from naturals. -/
theorem addi_ofNat (n m : Nat) : IntOp.addi (BitVec.ofNat 32 n) (BitVec.ofNat 32 m) = BitVec.ofNat 32 (n + m) :=
  (BitVec.ofNat_add n m).symm

/-- The equality test of the row number (plus the zero word) with the column number. -/
theorem mask_eq (r k : Fin 8192) :
    IntOp.cmpi .eq (IntOp.addi (BitVec.ofNat 32 r.val) 0#32) (BitVec.ofNat 32 k.val) = if r = k then 1#1 else 0#1 := by
  split
  · next h => subst h; exact StableHlo.Predicate.cmpi_eq_iff.2 (by simp [IntOp.addi])
  · next h =>
    refine eq_zero_of_ne_one fun h1 => h (Fin.ext ?_)
    have h2 := congrArg BitVec.toNat (StableHlo.Predicate.cmpi_eq_iff.1 h1)
    simp only [IntOp.addi, BitVec.add_zero, BitVec.toNat_ofNat] at h2
    have := r.isLt; have := k.isLt; omega

/-! ## The index arrays of the two gathers -/

/-- The position `i` itself … -/
theorem v7_at (i : Fin 4096) : (val_main_v7 (F := Ideal)) (ix1 i) = BitVec.ofNat 32 i.val := rfl

/-- … and the position 4096 further, as words. -/
theorem v9_at (i : Fin 4096) : (val_main_v9 (F := Ideal)) (ix1 i) = BitVec.ofNat 32 (i.val + 4096) := by
  rw [val_main_v9_apply, val_main_v8_apply, val_main_c_apply, v7_at]
  exact addi_ofNat _ _

theorem v25_at (i : Fin 4096) : (val_main_v25 (F := Ideal)) (ix1 i) = BitVec.ofNat 32 (i.val + 4096) := by
  rw [val_main_v25_apply, val_main_v24_apply, val_main_c_4_apply, v7_at]
  exact addi_ofNat _ _

/-- The wrap-around does nothing to either. -/
theorem v14_at (i : Fin 4096) : (val_main_v14 (F := Ideal)) (ix1 i) = BitVec.ofNat 32 i.val := by
  rw [val_main_v14_apply, val_main_v11_apply, val_main_v10_apply, val_main_c_0_apply, v7_at]
  exact wrap_id _ (by have := i.isLt; omega) _

theorem v35_at (i : Fin 4096) : (val_main_v35 (F := Ideal)) (ix1 i) = BitVec.ofNat 32 i.val := by
  rw [val_main_v35_apply, val_main_v32_apply, val_main_v31_apply, val_main_c_7_apply, v7_at]
  exact wrap_id _ (by have := i.isLt; omega) _

theorem v19_at (i : Fin 4096) : (val_main_v19 (F := Ideal)) (ix1 i) = BitVec.ofNat 32 (i.val + 4096) := by
  rw [val_main_v19_apply, val_main_v16_apply, val_main_v15_apply, val_main_c_2_apply, v9_at]
  exact wrap_id _ (by have := i.isLt; omega) _

theorem v30_at (i : Fin 4096) : (val_main_v30 (F := Ideal)) (ix1 i) = BitVec.ofNat 32 (i.val + 4096) := by
  rw [val_main_v30_apply, val_main_v27_apply, val_main_v26_apply, val_main_c_5_apply, v25_at]
  exact wrap_id _ (by have := i.isLt; omega) _

/-- A column vector read at its one column is the vector. -/
theorem col_idx (i : Fin 4096) : idx_main_v20 (ix2 i (0 : Fin 1)) = ix1 i :=
  funext fun a => Fin.ext (by match a with | ⟨0, _⟩ => rfl)

theorem v20_at (i : Fin 4096) : (val_main_v20 (F := Ideal)) (ix2 i (0 : Fin 1)) = BitVec.ofNat 32 i.val := by
  rw [val_main_v20_apply]; exact (congrArg _ (col_idx i)).trans (v14_at i)
theorem v21_at (i : Fin 4096) : (val_main_v21 (F := Ideal)) (ix2 i (0 : Fin 1)) = BitVec.ofNat 32 (i.val + 4096) := by
  rw [val_main_v21_apply]; exact (congrArg _ (col_idx i)).trans (v19_at i)
theorem v36_at (i : Fin 4096) : (val_main_v36 (F := Ideal)) (ix2 i (0 : Fin 1)) = BitVec.ofNat 32 (i.val + 4096) := by
  rw [val_main_v36_apply]; exact (congrArg _ (col_idx i)).trans (v30_at i)
theorem v37_at (i : Fin 4096) : (val_main_v37 (F := Ideal)) (ix2 i (0 : Fin 1)) = BitVec.ofNat 32 i.val := by
  rw [val_main_v37_apply]; exact (congrArg _ (col_idx i)).trans (v35_at i)

/-- Two column vectors joined side by side: column 0 is the first, column 1 the second. -/
theorem pair_col0 {α : Type} (x y : S4096x1.Idx → α) (i : Fin 4096) :
    concatenate S4096x2 1 [⟨S4096x1, x⟩, ⟨S4096x1, y⟩] concatenates_S4096x1_S4096x1_S4096x2_d1 (ix2 i (0 : Fin 2))
      = x (ix2 i (0 : Fin 1)) :=
  concatenate_pair_apply_left (1 : Fin S4096x2.rank) x y concatenates_S4096x1_S4096x1_S4096x2_d1 (ix2 i (0 : Fin 2)) rfl
    (ix2 i (0 : Fin 1)) (fun b => by match b with | ⟨0, _⟩ => rfl | ⟨1, _⟩ => rfl)

theorem pair_col1 {α : Type} (x y : S4096x1.Idx → α) (i : Fin 4096) :
    concatenate S4096x2 1 [⟨S4096x1, x⟩, ⟨S4096x1, y⟩] concatenates_S4096x1_S4096x1_S4096x2_d1 (ix2 i (1 : Fin 2))
      = y (ix2 i (0 : Fin 1)) :=
  concatenate_pair_apply_right (1 : Fin S4096x2.rank) x y concatenates_S4096x1_S4096x1_S4096x2_d1 (ix2 i (1 : Fin 2)) rfl rfl
    (ix2 i (0 : Fin 1)) (fun b hb => by match b, hb with | ⟨0, _⟩, _ => rfl | ⟨1, _⟩, hb => exact absurd rfl hb) rfl

theorem v22_at0 (i : Fin 4096) : (val_main_v22 (F := Ideal)) (ix2 i (0 : Fin 2)) = BitVec.ofNat 32 i.val :=
  (pair_col0 _ _ i).trans (v20_at i)
theorem v22_at1 (i : Fin 4096) : (val_main_v22 (F := Ideal)) (ix2 i (1 : Fin 2)) = BitVec.ofNat 32 (i.val + 4096) :=
  (pair_col1 _ _ i).trans (v21_at i)
theorem v38_at0 (i : Fin 4096) : (val_main_v38 (F := Ideal)) (ix2 i (0 : Fin 2)) = BitVec.ofNat 32 (i.val + 4096) :=
  (pair_col0 _ _ i).trans (v36_at i)
theorem v38_at1 (i : Fin 4096) : (val_main_v38 (F := Ideal)) (ix2 i (1 : Fin 2)) = BitVec.ofNat 32 i.val :=
  (pair_col1 _ _ i).trans (v37_at i)

/-! ## The gather of single entries of a square matrix at pairs of start indices -/

/-- The dimension numbers of both gathers: both axes collapsed, the index pair along axis 1 of the start indices. -/
abbrev G : GatherDims S8192x8192 S4096x2 S4096 := gather_S8192x8192_S4096x2_S4096_n_01_n_n_01_1_11

/-- The row read at result position `i`: the first start index, read signed and clamped. -/
theorem gather_coord0 (idx : IVec S4096x2 32) (i : Fin 4096) :
    (G.operandIdx (ix1 i) idx (0 : Fin 2)).val = min (idx (ix2 i (0 : Fin 2))).toInt.toNat 8191 := by
  show G.start (ix1 i) idx 0 + G.batchCoord (ix1 i) 0 + G.offCoord (ix1 i) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ G.startIndexMap from by decide)]
  have hsi : G.siIdx (ix1 i) ⟨List.idxOf (0 : Fin 2) G.startIndexMap,
      List.idxOf_lt_length_iff.2 (by decide)⟩ = ix2 i (0 : Fin 2) := by
    funext b; refine Fin.ext ?_
    match b with
    | ⟨0, _⟩ => rfl
    | ⟨1, _⟩ => rfl
  rw [hsi]
  rfl

/-- The column read at result position `i`: the second start index, read signed and clamped. -/
theorem gather_coord1 (idx : IVec S4096x2 32) (i : Fin 4096) :
    (G.operandIdx (ix1 i) idx (1 : Fin 2)).val = min (idx (ix2 i (1 : Fin 2))).toInt.toNat 8191 := by
  show G.start (ix1 i) idx 1 + G.batchCoord (ix1 i) 1 + G.offCoord (ix1 i) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ G.startIndexMap from by decide)]
  have hsi : G.siIdx (ix1 i) ⟨List.idxOf (1 : Fin 2) G.startIndexMap,
      List.idxOf_lt_length_iff.2 (by decide)⟩ = ix2 i (1 : Fin 2) := by
    funext b; refine Fin.ext ?_
    match b with
    | ⟨0, _⟩ => rfl
    | ⟨1, _⟩ => rfl
  rw [hsi]
  rfl

/-- With both start indices in range, the gather reads the matrix at that row and column. -/
theorem gather2_at {α : Type} (x : S8192x8192.Idx → α) (idx : IVec S4096x2 32) (i : Fin 4096) (p q : Fin 8192)
    (hp : (idx (ix2 i (0 : Fin 2))).toInt.toNat = p.val) (hq : (idx (ix2 i (1 : Fin 2))).toInt.toNat = q.val) :
    Host.gather G x idx (ix1 i) = x (ix2 p q) := by
  unfold Host.gather
  congr 1
  funext a
  refine Fin.ext ?_
  match a with
  | ⟨0, _⟩ =>
    refine (gather_coord0 idx i).trans ?_
    rw [hp]; exact Nat.min_eq_left (by have := p.isLt; omega)
  | ⟨1, _⟩ =>
    refine (gather_coord1 idx i).trans ?_
    rw [hq]; exact Nat.min_eq_left (by have := q.isLt; omega)

/-! ## The Gram matrix, the positives, the numerator -/

/-- The Gram matrix of the normalised rows is the specification's dot product. -/
theorem sim_eq (a0 a1 : S4096x128.Idx → EReal) (r c : Fin 8192) :
    (val_main_v6 (F := Ideal) a0 a1 : S8192x8192.Idx → EReal) (ix2 r c) = Cert.Spec.sim (zR a0 a1) r c := by
  rw [val_main_v6_apply]
  unfold Cert.Spec.sim zR
  refine Finset.sum_congr rfl fun k _ => ?_
  have el : lidx_main_v6 (ix2 r c) k = ix2 r k :=
    funext fun a => Fin.ext (by match a with | ⟨0, _⟩ => rfl | ⟨1, _⟩ => rfl)
  have er : ridx_main_v6 (ix2 r c) k = ix2 c k :=
    funext fun a => Fin.ext (by match a with | ⟨0, _⟩ => rfl | ⟨1, _⟩ => rfl)
  rw [el, er]

/-- The first gather reads the Gram matrix at (i, i + 4096) … -/
theorem v23_at (a0 a1 : S4096x128.Idx → EReal) (i : Fin 4096) :
    (val_main_v23 (F := Ideal) a0 a1 : S4096.Idx → EReal) (ix1 i)
      = Cert.Spec.sim (zR a0 a1) (Cert.Spec.lo i) (Cert.Spec.hi i) := by
  refine (gather2_at (val_main_v6 (F := Ideal) a0 a1) (val_main_v22 (F := Ideal)) i (Cert.Spec.lo i) (Cert.Spec.hi i)
    ?_ ?_).trans (sim_eq a0 a1 _ _)
  · rw [v22_at0]; exact toInt_toNat_ofNat _ (by have := i.isLt; omega)
  · rw [v22_at1]; exact toInt_toNat_ofNat _ (by have := i.isLt; omega)

/-- … and the second at (i + 4096, i). -/
theorem v39_at (a0 a1 : S4096x128.Idx → EReal) (i : Fin 4096) :
    (val_main_v39 (F := Ideal) a0 a1 : S4096.Idx → EReal) (ix1 i)
      = Cert.Spec.sim (zR a0 a1) (Cert.Spec.hi i) (Cert.Spec.lo i) := by
  refine (gather2_at (val_main_v6 (F := Ideal) a0 a1) (val_main_v38 (F := Ideal)) i (Cert.Spec.hi i) (Cert.Spec.lo i)
    ?_ ?_).trans (sim_eq a0 a1 _ _)
  · rw [v38_at0]; exact toInt_toNat_ofNat _ (by have := i.isLt; omega)
  · rw [v38_at1]; exact toInt_toNat_ofNat _ (by have := i.isLt; omega)

/-- The two gathers one after the other: row `r` holds the positive of the pair `r` belongs to. -/
theorem pos_eq (a0 a1 : S4096x128.Idx → EReal) (r : Fin 8192) :
    (val_main_v40 (F := Ideal) a0 a1 : S8192.Idx → EReal) (ix1 r) = Cert.Spec.pos (zR a0 a1) (Cert.Spec.pair r) := by
  unfold Cert.Spec.pos
  by_cases h : r.val < 4096
  · have hp : Cert.Spec.pair r = ⟨r.val, h⟩ := Fin.ext (Nat.mod_eq_of_lt h)
    rw [hp]
    refine (concatenate_pair_apply_left (0 : Fin S8192.rank) (val_main_v23 (F := Ideal) a0 a1)
      (val_main_v39 (F := Ideal) a0 a1) concatenates_S4096_S4096_S8192_d0 (ix1 r) rfl (ix1 ⟨r.val, h⟩)
      (fun b => by match b with | ⟨0, _⟩ => rfl)).trans ?_
    exact v23_at a0 a1 _
  · have h' : r.val - 4096 < 4096 := by have := r.isLt; omega
    have hp : Cert.Spec.pair r = ⟨r.val - 4096, h'⟩ := Fin.ext (by
      show r.val % 4096 = r.val - 4096
      have := r.isLt; omega)
    rw [hp]
    refine (concatenate_pair_apply_right (0 : Fin S8192.rank) (val_main_v23 (F := Ideal) a0 a1)
      (val_main_v39 (F := Ideal) a0 a1) concatenates_S4096_S4096_S8192_d0 (ix1 r) rfl rfl (ix1 ⟨r.val - 4096, h'⟩)
      (fun b hb => (hb (Fin.ext (Nat.lt_one_iff.1 b.isLt))).elim)
      (by show r.val - 4096 + 4096 = r.val; omega)).trans ?_
    exact (v39_at a0 a1 _).trans (Cert.Spec.sim_comm _ _ _)

/-- The numerator. -/
theorem nom_eq (a0 a1 : S4096x128.Idx → EReal) (r : Fin 8192) :
    (val_main_v43 (F := Ideal) a0 a1 : S8192.Idx → EReal) (ix1 r) = Cert.Spec.nom (zR a0 a1) r := by
  rw [val_main_v43_apply, val_main_v42_apply, val_main_v41_apply, val_main_cst_9_apply, pos_eq]
  rfl

/-! ## The masked weights and the denominator -/

/-- One minus the indicator of the diagonal, as extended reals. -/
theorem one_sub_ind (r k : Fin 8192) :
    Cert.Spec.cOne - FloatOps.uitofp (F := Ideal) .f32 (if r = k then 1#1 else 0#1) = if r = k then 0 else 1 := by
  rw [Cert.Spec.cOne_eq]
  split
  · show (1 : EReal) - (((1#1 : BitVec 1).toNat : ℝ) : EReal) = 0
    have : (((1#1 : BitVec 1).toNat : ℝ) : EReal) = 1 := by simp
    rw [this, ← EReal.coe_one, ← EReal.coe_sub, sub_self, EReal.coe_zero]
  · show (1 : EReal) - (((0#1 : BitVec 1).toNat : ℝ) : EReal) = 1
    have : (((0#1 : BitVec 1).toNat : ℝ) : EReal) = 0 := by simp
    rw [this, sub_zero]

/-- The masked weight of row `r` and column `k`. -/
theorem wgt_eq (a0 a1 : S4096x128.Idx → EReal) (r k : Fin 8192) :
    (val_main_v55 (F := Ideal) a0 a1 : S8192x8192.Idx → EReal) (ix2 r k) = Cert.Spec.wgt (zR a0 a1) r k := by
  rw [val_main_v55_apply, val_main_v51_apply, val_main_v50_apply, val_main_cst_11_apply, val_main_v49_apply,
    val_main_v48_apply, val_main_v47_apply, val_main_v46_apply, val_main_c_10_apply, val_main_v44_apply,
    val_main_v45_apply, val_main_v54_apply, val_main_v53_apply, val_main_v52_apply, val_main_cst_12_apply, sim_eq]
  show (Cert.Spec.cOne - FloatOps.uitofp (F := Ideal) .f32
      (IntOp.cmpi .eq (IntOp.addi (BitVec.ofNat 32 r.val) 0#32) (BitVec.ofNat 32 k.val)))
    * Ideal.exp (Ideal.div (Cert.Spec.sim (zR a0 a1) r k) Cert.Spec.cHalf) = _
  rw [mask_eq, one_sub_ind, Cert.Spec.div_half]
  unfold Cert.Spec.wgt
  split
  · exact zero_mul _
  · exact one_mul _

/-- The denominator. -/
theorem den_eq (a0 a1 : S4096x128.Idx → EReal) (r : Fin 8192) :
    (val_main_v56 (F := Ideal) a0 a1 : S8192.Idx → EReal) (ix1 r) = Cert.Spec.den (zR a0 a1) r := by
  rw [val_main_v56_apply, val_main_cst_13_apply]
  have hz : FloatOps.ofBits (F := Ideal) .f32 0x00000000#32 = (0 : EReal) := Cert.Spec.cZero_eq
  rw [hz, zero_add]
  unfold Cert.Spec.den
  refine Finset.sum_congr rfl fun k _ => ?_
  have e : idx_main_v56 (ix1 r) k = ix2 r k :=
    funext fun a => Fin.ext (by match a with | ⟨0, _⟩ => rfl | ⟨1, _⟩ => rfl)
  rw [e]
  exact wgt_eq a0 a1 r k

/-! ## The mean of the losses -/

/-- The loss of row `r`. -/
theorem neglog_eq (a0 a1 : S4096x128.Idx → EReal) (r : Fin 8192) :
    (val_main_v59 (F := Ideal) a0 a1 : S8192.Idx → EReal) (ix1 r)
      = -(Ideal.log (Ideal.div (Cert.Spec.nom (zR a0 a1) r) (Cert.Spec.den (zR a0 a1) r))) := by
  rw [val_main_v59_apply, val_main_v58_apply, val_main_v57_apply, nom_eq, den_eq]
  rfl

/-- The reference's result is the specification's quantity of its normalised rows. -/
theorem result_eq (a0 a1 : S4096x128.Idx → EReal) :
    (val_main_v61 (F := Ideal) a0 a1 : S_.Idx → EReal) = fun _ => Cert.Spec.total (zR a0 a1) := by
  funext j
  rw [val_main_v61_apply, val_main_v60_apply, val_main_cst_14_apply, val_main_cst_15_apply]
  have hz : FloatOps.ofBits (F := Ideal) .f32 0x00000000#32 = (0 : EReal) := Cert.Spec.cZero_eq
  rw [hz, zero_add]
  have hs : ∑ j : S8192.Idx, (val_main_v59 (F := Ideal) a0 a1 : S8192.Idx → EReal) j
      = ∑ r : Fin 8192, -(Ideal.log (Ideal.div (Cert.Spec.nom (zR a0 a1) r) (Cert.Spec.den (zR a0 a1) r))) :=
    Fintype.sum_equiv idxEquiv1 _ _ fun j => (congrArg _ (eq_ix1 j)).trans (neglog_eq a0 a1 (j 0))
  rw [hs]
  rfl

end Cert.ReferenceIdeal.RefValue

end
-- ==== Proof.Bridge.lean ====
/-
  The two programs normalise the rows alike: the kernel's array of rows, as its region finds it, is the reference's, the
  change of format the kernel's program makes on the way being the identity over the extended reals.
-/
import proofs.«106766_j60722247631651_1_alg».proof.Proof.Kern.ValueHost
import proofs.«106766_j60722247631651_1_alg».proof.Proof.Ref.RefValue

set_option maxRecDepth 16384

noncomputable section

namespace Cert.Bridge

open Idealize.ShloMosaic Idealize.ShloMosaic.TcCoe Idealize.ShloMosaic.ValueIdx
open Idealize.SL.Sem

/-- The host operations before the kernel's region and the reference's first operations are one function of the two
    arguments: the same concatenation, squares, row sums, square roots, clamp and quotient, operation by operation. -/
theorem chain_eq (a0 a1 : Cert.KernelIdeal.S4096x128.Idx → EReal) :
    Cert.KernelIdeal.HandI.zChainK a0 a1 = Cert.ReferenceIdeal.ReadP.val_main_v5 (F := Ideal) a0 a1 := by
  unfold Cert.KernelIdeal.HandI.zChainK Cert.ReferenceIdeal.ReadP.val_main_v5 Cert.ReferenceIdeal.ReadP.val_main_v4
    Cert.ReferenceIdeal.ReadP.val_main_v3 Cert.ReferenceIdeal.ReadP.val_main_v2 Cert.ReferenceIdeal.ReadP.val_main_cst
    Cert.ReferenceIdeal.ReadP.val_main_v1 Cert.ReferenceIdeal.ReadP.val_main_call0_v2 Cert.ReferenceIdeal.ReadP.val_main_call0_v1
    Cert.ReferenceIdeal.ReadP.val_main_call0_cst Cert.ReferenceIdeal.ReadP.val_main_call0_v0 Cert.ReferenceIdeal.ReadP.val_main_v0
  rfl

/-- The kernel's rows as its region finds them are the reference's rows of the same arguments. -/
theorem rows_eq (m : (ℓ : Loc Cert.KernelIdeal.nD Cert.KernelIdeal.τ Cert.KernelIdeal.sig) → Buf (Elt Ideal) ℓ) (c : Dev Cert.KernelIdeal.nD) :
    Cert.KernelIdeal.HandI.zK m c
      = Cert.ReferenceIdeal.RefValue.zR (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext r d
  unfold Cert.KernelIdeal.HandI.zK Cert.ReferenceIdeal.RefValue.zR
  rw [Cert.KernelIdeal.HandI.V_v6 m c, chain_eq]

end Cert.Bridge

end
-- ==== Proof.lean ====
/-
  The certificate of the contrastive-loss kernel against its reference.

  Both programs normalise the 8192 rows (the two arguments one above the other, each row over its norm clamped from
  below) and return the mean over the rows of −log (numerator / denominator): the numerator of row r is exp of twice
  the dot product of row r mod 4096 with its partner 4096 further, the denominator the sum over every OTHER row c of
  exp of twice the dot product of rows r and c. The kernel computes the denominators tile by tile on an 8 × 8 grid,
  zeroing the diagonal by a select and adding the eight column tiles' row sums in a scratch column; the reference forms
  the whole Gram matrix, multiplies by one minus the identity and sums each row. Over the extended reals the two agree
  by commutativity and associativity of the sum, 0 · x = 0, 1 · x = x and x / (1/2) = 2 · x, which hold at the
  infinities too: the precondition is never opened. The positives agree by commutativity of the product.

  The frames: the idealized and the word-level kernel programs are one text, and their run is proved once for any float
  instance from the body's run at a symbolic grid point; the reference has no kernel and its frame is its run.
-/
import proofs.«106766_j60722247631651_1_alg».proof.Defs
import proofs.«106766_j60722247631651_1_alg».proof.Proof.Gen.Kernel
import proofs.«106766_j60722247631651_1_alg».proof.Proof.Gen.KernelIdeal
import proofs.«106766_j60722247631651_1_alg».proof.Proof.Gen.ReferenceIdeal
import proofs.«106766_j60722247631651_1_alg».proof.Proof.Gen.Pre_finite_inputs
import proofs.«106766_j60722247631651_1_alg».proof.Proof.Kern.Frame
import proofs.«106766_j60722247631651_1_alg».proof.Proof.KernB.Frame
import proofs.«106766_j60722247631651_1_alg».proof.Proof.Kern.ValueDen
import proofs.«106766_j60722247631651_1_alg».proof.Proof.Kern.ValueHost
import proofs.«106766_j60722247631651_1_alg».proof.Proof.Ref.RefValue
import proofs.«106766_j60722247631651_1_alg».proof.Proof.Bridge

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame (F := Bits) m ρ

/-- The idealized kernel program runs and keeps its arguments. -/
theorem frame_ki : Cert.frame_KernelIdeal := fun m ρ _ => Cert.KernelIdeal.Hand.frame (F := Ideal) m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the specification's quantity of the normalised rows, which are one array of the arguments. -/
theorem algebraic : Cert.algebraic_KernelIdeal_ReferenceIdeal := by
  intro m ρ m' ρ' _ hagree
  refine ⟨fun c => fun _ => Cert.Spec.total (Cert.KernelIdeal.HandI.zK m c), ?_, ?_⟩
  · refine (θ_run Cert.KernelIdeal.defs _ _).mono (fun _ h c => ⟨(h c).1.trans ?_, (h c).2⟩)
      (Cert.KernelIdeal.Hand.run_result (F := Ideal) m ρ)
    refine (Cert.KernelIdeal.HandI.Vend_result m c).trans ?_
    funext _
    exact congrArg (Cert.Spec.loss (Cert.Spec.nom (Cert.KernelIdeal.HandI.zK m c)))
      (funext fun r => Cert.KernelIdeal.HandI.denK_eq m c r)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v61_eq, Cert.ReferenceIdeal.RefValue.result_eq, (hagree c).1, (hagree c).2]
    funext _
    exact congrArg Cert.Spec.total (Cert.Bridge.rows_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
